-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "inv_768" .f32 0x3AAAAAAB#32 ((1 / 768 : ℝ) : EReal)
  ∧ IdealRules.named_const.Statement Cert.KernelIdeal.κ "inv_768" .f32 0x3AAAAAAB#32 ((1 / 768 : ℝ) : EReal)
  ∧ IdealRules.named_const.Statement Cert.KernelIdeal.κ "inv_768" .f32 0x3AAAAAAB#32 ((1 / 768 : ℝ) : EReal)
  ∧ IdealRules.named_const.Statement Cert.KernelIdeal.κ "inv_768" .f32 0x3AAAAAAB#32 ((1 / 768 : ℝ) : EReal)
  ∧ IdealRules.named_const.Statement Cert.KernelIdeal.κ "inv_768" .f32 0x3AAAAAAB#32 ((1 / 768 : ℝ) : EReal)
  ∧ IdealRules.named_const.Statement Cert.KernelIdeal.κ "inv_768" .f32 0x3AAAAAAB#32 ((1 / 768 : ℝ) : EReal)
  ∧ IdealRules.named_const.Statement Cert.KernelIdeal.κ "inv_768" .f32 0x3AAAAAAB#32 ((1 / 768 : ℝ) : EReal)
  ∧ IdealRules.named_const.Statement Cert.KernelIdeal.κ "inv_768" .f32 0x3AAAAAAB#32 ((1 / 768 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x768 : Shape := ⟨3, ![8, 4096, 768]⟩
abbrev S1x4x768 : Shape := ⟨3, ![1, 4, 768]⟩
abbrev S768 : Shape := ⟨1, ![768]⟩
abbrev S_ : Shape := ⟨0, ![]⟩

class Facts : Prop where
  bcast_S_S8x4096x768 : S_.BroadcastsInDim S8x4096x768 (![] : Fin 0 → Fin S8x4096x768.rank)
  reducesTo_S8x4096x768_S_d0_1_2 : S8x4096x768.ReducesTo [0, 1, 2] S_
  h_S_ : 0 < S_.numel
  bcast_S_S1x4x768 : S_.BroadcastsInDim S1x4x768 (![] : Fin 0 → Fin S1x4x768.rank)
  reducesTo_S1x4x768_S_d0_1_2 : S1x4x768.ReducesTo [0, 1, 2] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768 .f32) (main_arg5 : FVec F S768 .f32) (main_arg6 : FVec F S768 .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S768 .f32 := Host.absf main_arg5
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  let main_v29 : FVec F S768 .f32 := Host.absf main_arg6
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  main_v33

def fn {F : FTy → Type} [FloatOps F] (main_arg0 : FVec F S8x4096x768 .f32) (main_arg1 : FVec F S1x4x768 .f32) (main_arg2 : FVec F S1x4x768 .f32) (main_arg3 : FVec F S768 .f32) (main_arg4 : FVec F S768 .f32) (main_arg5 : FVec F S768 .f32) (main_arg6 : FVec F S768 .f32) : IVec S_ 1 :=
  let main_v0 : FVec F S8x4096x768 .f32 := Host.absf main_arg0
  let main_cst : FVec F S_ .f32 := constant S_ .f32 0x7F800000#32
  let main_v1 : FVec F S8x4096x768 .f32 := broadcastInDim S8x4096x768 ![] bcast_S_S8x4096x768 main_cst
  let main_v2 : IVec S8x4096x768 1 := cmpf .olt main_v0 main_v1
  let main_c : IVec S_ 1 := constantI S_ 1 1#1
  let main_v3 : IVec S_ 1 := (fun x v => Host.reduce IntOp.andi x v reducesTo_S8x4096x768_S_d0_1_2 h_S_) main_v2 main_c
  let main_v4 : FVec F S1x4x768 .f32 := Host.absf main_arg1
  let main_cst_0 : FVec F S_ .f32 := constant S_ .f32 0x7F800000#32
  let main_v5 : FVec F S1x4x768 .f32 := broadcastInDim S1x4x768 ![] bcast_S_S1x4x768 main_cst_0
  let main_v6 : IVec S1x4x768 1 := cmpf .olt main_v4 main_v5
  let main_c_1 : IVec S_ 1 := constantI S_ 1 1#1
  let main_v7 : IVec S_ 1 := (fun x v => Host.reduce IntOp.andi x v reducesTo_S1x4x768_S_d0_1_2 h_S_) main_v6 main_c_1
  let main_v8 : IVec S_ 1 := andi main_v3 main_v7
  let main_v9 : FVec F S1x4x768 .f32 := Host.absf main_arg2
  let main_cst_2 : FVec F S_ .f32 := constant S_ .f32 0x7F800000#32
  let main_v10 : FVec F S1x4x768 .f32 := broadcastInDim S1x4x768 ![] bcast_S_S1x4x768 main_cst_2
  let main_v11 : IVec S1x4x768 1 := cmpf .olt main_v9 main_v10
  let main_c_3 : IVec S_ 1 := constantI S_ 1 1#1
  let main_v12 : IVec S_ 1 := (fun x v => Host.reduce IntOp.andi x v reducesTo_S1x4x768_S_d0_1_2 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg4 main_arg5 main_arg6 main_v13 main_v16
-- ==== Kernel.lean ====
abbrev S8x4096x768 : Shape := ⟨3, ![8, 4096, 768]⟩
abbrev S1x4x768 : Shape := ⟨3, ![1, 4, 768]⟩
abbrev S768 : Shape := ⟨1, ![768]⟩
abbrev S_ : Shape := ⟨0, ![]⟩
abbrev S1x4 : Shape := ⟨2, ![1, 4]⟩
abbrev S1x4x1 : Shape := ⟨3, ![1, 4, 1]⟩
abbrev S1x1x768 : Shape := ⟨3, ![1, 1, 768]⟩
abbrev S4x768 : Shape := ⟨2, ![4, 768]⟩
abbrev S768x4 : Shape := ⟨2, ![768, 4]⟩
abbrev S1x768 : Shape := ⟨2, ![1, 768]⟩
abbrev S8x4x768 : Shape := ⟨3, ![8, 4, 768]⟩
abbrev S1x4096x768 : Shape := ⟨3, ![1, 4096, 768]⟩
abbrev S1x1024x768 : Shape := ⟨3, ![1, 1024, 768]⟩
abbrev S1024x768 : Shape := ⟨2, ![1024, 768]⟩
abbrev S1024 : Shape := ⟨1, ![1024]⟩
abbrev S1024x1 : Shape := ⟨2, ![1024, 1]⟩
abbrev S1024x4 : Shape := ⟨2, ![1024, 4]⟩

abbrev nBuf : Space → Nat
  | .hbm => 56
  | .vmem => 8
  | .smem => 0
  | _ => 0

abbrev bufTy : (tb : Table) → Fin (tcTables nBuf tb) → BufTy
  | .hbm, ⟨0, _⟩ => ⟨S8x4096x768, .f32⟩
  | .hbm, ⟨1, _⟩ => ⟨S1x4x768, .f32⟩
  | .hbm, ⟨2, _⟩ => ⟨S1x4x768, .f32⟩
  | .hbm, ⟨3, _⟩ => ⟨S768, .f32⟩
  | .hbm, ⟨4, _⟩ => ⟨S768, .f32⟩
  | .hbm, ⟨5, _⟩ => ⟨S768, .f32⟩
  | .hbm, ⟨6, _⟩ => ⟨S768, .f32⟩
  | .hbm, ⟨7, _⟩ => ⟨S_, .f32⟩
  | .hbm, ⟨8, _⟩ => ⟨S1x4, .f32⟩
  | .hbm, ⟨9, _⟩ => ⟨S1x4x1, .f32⟩
  | .hbm, ⟨10, _⟩ => ⟨S_, .f32⟩
  | .hbm, ⟨11, _⟩ => ⟨S1x4x1, .f32⟩
  | .hbm, ⟨12, _⟩ => ⟨S1x4x1, .f32⟩
  | .hbm, ⟨13, _⟩ => ⟨S_, .i32⟩
  | .hbm, ⟨14, _⟩ => ⟨S_, .f32⟩
  | .hbm, ⟨15, _⟩ => ⟨S1x4, .f32⟩
  | .hbm, ⟨16, _⟩ => ⟨S1x4x1, .f32⟩
  | .hbm, ⟨17, _⟩ => ⟨S_, .f32⟩
  | .hbm, ⟨18, _⟩ => ⟨S1x4x1, .f32⟩
  | .hbm, ⟨19, _⟩ => ⟨S1x4x1, .f32⟩
  | .hbm, ⟨20, _⟩ => ⟨S1x4x768, .f32⟩
  | .hbm, ⟨21, _⟩ => ⟨S1x4x768, .f32⟩
  | .hbm, ⟨22, _⟩ => ⟨S1x4x768, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S1x4, .f32⟩
  | .hbm, ⟨28, _⟩ => ⟨S1x4x1, .f32⟩
  | .hbm, ⟨29, _⟩ => ⟨S1x4x1, .f32⟩
  | .hbm, ⟨30, _⟩ => ⟨S1x4x1, .f32⟩
  | .hbm, ⟨31, _⟩ => ⟨S_, .f32⟩
  | .hbm, ⟨32, _⟩ => ⟨S_, .i1⟩
  | .hbm, ⟨33, _⟩ => ⟨S_, .f32⟩
  | .hbm, ⟨34, _⟩ => ⟨S_, .f32⟩
  | .hbm, ⟨35, _⟩ => ⟨S1x4x1, .f32⟩
  | .hbm, ⟨36, _⟩ => ⟨S1x4x1, .f32⟩
  | .hbm, ⟨37, _⟩ => ⟨S1x4x768, .f32⟩
  | .hbm, ⟨38, _⟩ => ⟨S1x4x768, .f32⟩
  | .hbm, ⟨39, _⟩ => ⟨S_, .f32⟩
  | .hbm, ⟨40, _⟩ => ⟨S1x4x1, .f32⟩
  | .hbm, ⟨41, _⟩ => ⟨S1x4x1, .f32⟩
  | .hbm, ⟨42, _⟩ => ⟨S1x4x1, .f32⟩
  | .hbm, ⟨43, _⟩ => ⟨S1x4x768, .f32⟩
  | .hbm, ⟨44, _⟩ => ⟨S1x4x768, .f32⟩
  | .hbm, ⟨45, _⟩ => ⟨S1x1x768, .f32⟩
  | .hbm, ⟨46, _⟩ => ⟨S1x4x768, .f32⟩
  | .hbm, ⟨47, _⟩ => ⟨S1x4x768, .f32⟩
  | .hbm, ⟨48, _⟩ => ⟨S1x1x768, .f32⟩
  | .hbm, ⟨49, _⟩ => ⟨S1x4x768, .f32⟩
  | .hbm, ⟨50, _⟩ => ⟨S1x4x768, .f32⟩
  | .hbm, ⟨51, _⟩ => ⟨S4x768, .f32⟩
  | .hbm, ⟨52, _⟩ => ⟨S768x4, .f32⟩
  | .hbm, ⟨53, _⟩ => ⟨S1x768, .f32⟩
  | .hbm, ⟨54, _⟩ => ⟨S1x768, .f32⟩
  | .hbm, ⟨55, _⟩ => ⟨S8x4x768, .f32⟩
  | .local _ .vmem, ⟨0, _⟩ => ⟨S1x4096x768, .f32⟩
  | .local _ .vmem, ⟨1, _⟩ => ⟨S1x4096x768, .f32⟩
  | .local _ .vmem, ⟨2, _⟩ => ⟨S768x4, .f32⟩
  | .local _ .vmem, ⟨3, _⟩ => ⟨S1x768, .f32⟩
  | .local _ .vmem, ⟨4, _⟩ => ⟨S1x768, .f32⟩
  | .local _ .vmem, ⟨5, _⟩ => ⟨S1x4x768, .f32⟩
  | .local _ .vmem, ⟨6, _⟩ => ⟨S1x4x768, .f32⟩
  | .local _ .vmem, ⟨7, _⟩ => ⟨S1x4x768, .f32⟩
  | _, _ => ⟨S8x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_cst_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_cst_1 : Ref sig .tc := ⟨.hbm, 24, rfl⟩
abbrev main_call0_v8 : Ref sig .tc := ⟨.hbm, 25, rfl⟩
abbrev main_call0_cst_2 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_cst_3 : Ref sig .tc := ⟨.hbm, 31, rfl⟩
abbrev main_call0_v13 : Ref sig .tc := ⟨.hbm, 32, rfl⟩
abbrev main_call0_cst_4 : Ref sig .tc := ⟨.hbm, 33, rfl⟩
abbrev main_call0_call0_v0 : Ref sig .tc := ⟨.hbm, 34, rfl⟩
abbrev main_call0_call0_v1 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_cst_1 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def k0_mult1 : BitVec 32 :=
  let c0_i32 : BitVec 32 := 0#32
  let c1024_i32 : BitVec 32 := 1024#32
  let v7 : BitVec 32 := Scalar.muli c0_i32 c1024_i32
  v7
def k0_off1 (c0_i32 : BitVec 32) : Fin 3 → Nat :=
  let c0_5 : Index := 0#32
  let c1024_i32 : BitVec 32 := 1024#32
  let v7 : BitVec 32 := Scalar.muli c0_i32 c1024_i32
  let v8 : BitVec 32 := v7
  let v9 : Index := Scalar.indexCast v8
  let c0_6 : Index := 0#32
  ![0, v9.toNat, 0]
def k0_mult2 : BitVec 32 :=
  let c1_i32 : BitVec 32 := 1#32
  let c1024_i32_17 : BitVec 32 := 1024#32
  let v48 : BitVec 32 := Scalar.muli c1_i32 c1024_i32_17
  v48
def k0_mult3 : BitVec 32 :=
  let c2_i32 : BitVec 32 := 2#32
  let c1024_i32_30 : BitVec 32 := 1024#32
  let v89 : BitVec 32 := Scalar.muli c2_i32 c1024_i32_30
  v89
def k0_mult4 : BitVec 32 :=
  let c3_i32 : BitVec 32 := 3#32
  let c1024_i32_43 : BitVec 32 := 1024#32
  let v130 : BitVec 32 := Scalar.muli c3_i32 c1024_i32_43
  v130
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x4x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  reducesTo_S1x4x768_S1x4_d2 : S1x4x768.ReducesTo [2] S1x4
  h_S_ : 0 < S_.numel
  bcast_S1x4_S1x4x1_0_1 : S1x4.BroadcastsInDim S1x4x1 (![0, 1] : Fin 2 → Fin S1x4x1.rank)
  bcast_S_S1x4x1 : S_.BroadcastsInDim S1x4x1 (![] : Fin 0 → Fin S1x4x1.rank)
  bcast_S1x4x1_S1x4x768_0_1_2 : S1x4x1.BroadcastsInDim S1x4x768 (![0, 1, 2] : Fin 3 → Fin S1x4x768.rank)
  bcast_S768_S1x1x768_2 : S768.BroadcastsInDim S1x1x768 (![2] : Fin 1 → Fin S1x1x768.rank)
  bcast_S1x1x768_S1x4x768_0_1_2 : S1x1x768.BroadcastsInDim S1x4x768 (![0, 1, 2] : Fin 3 → Fin S1x4x768.rank)
  shapeCasts_S1x4x768_S4x768 : S1x4x768.ShapeCasts S4x768
  transposes_S4x768_S768x4_1_0 : S4x768.Transposes [1, 0] S768x4
  shapeCasts_S768_S1x768 : S768.ShapeCasts S1x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  inb_S768x4_S768x4_0_0 : ∀ a, (![0, 0] : Fin 2 → Nat) a + S768x4.size a ≤ S768x4.size a
  h_S768x4 : 0 < S768x4.numel
  shapeCasts_S768x4_S768x4 : S768x4.ShapeCasts S768x4
  h_S1x1024x768 : 0 < S1x1024x768.numel
  shapeCasts_S1x1024x768_S1024x768 : S1x1024x768.ShapeCasts S1024x768
  reduces_S1024x768_S1024 : S1024x768.Reduces [1] S1024
  shapeCasts_S1024_S1024x1 : S1024.ShapeCasts S1024x1
  broadcasts_S1024x1_S1024x768 : S1024x1.Broadcasts S1024x768
  broadcasts_S1x768_S1024x768 : S1x768.Broadcasts S1024x768
  reduces_S1024x4_S1024 : S1024x4.Reduces [1] S1024
  broadcasts_S1024x1_S1024x4 : S1024x1.Broadcasts S1024x4
  inb_S1x4x768_S1x4x768_0_0_0 : ∀ a, (![0, 0, 0] : Fin 3 → Nat) a + S1x4x768.size a ≤ S1x4x768.size a
  h_S1x4x768 : 0 < S1x4x768.numel
  shapeCasts_S4x768_S1x4x768 : S4x768.ShapeCasts S1x4x768
  dot_S1024x768_S768x4_S1024x4_1_0_0_1_n_n_wf : DotDims.WF S1024x768 S768x4 S1024x4 [1] [0] [0] [1] [] []
  dot_S1024x4_S1024x768_S4x768_0_0_1_1_n_n_wf : DotDims.WF S1024x4 S1024x768 S4x768 [0] [0] [1] [1] [] []
  hrank0 : 0 < grid0.rank
  k0_mult1_dvd : 1024 ∣ k0_mult1.toNat
  k0_off1_inb : ∀ (r : Fin 4), ∀ a, (k0_off1 (BitVec.ofNat 32 r.val)) a + S1x1024x768.size a ≤ S1x4096x768.size a
  k0_mult2_dvd : 1024 ∣ k0_mult2.toNat
  k0_mult3_dvd : 1024 ∣ k0_mult3.toNat
  k0_mult4_dvd : 1024 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x768.size a ≤ S8x4096x768.size a
  hwx0_0 : ∀ i : grid0.Coords, EltTy.bits .f32 = 32 ∨ (Rect.block (s := S8x4096x768) S1x4096x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x4.size a ≤ S768x4.size a
  hwx0_1 : ∀ i : grid0.Coords, EltTy.bits .f32 = 32 ∨ (Rect.block (s := S768x4) S768x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x768.size a ≤ S1x768.size a
  hwx0_3 : ∀ i : grid0.Coords, EltTy.bits .f32 = 32 ∨ (Rect.block (s := S1x768) S1x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4x768.size a ≤ S1x4x768.size a
  hwx0_4 : ∀ i : grid0.Coords, EltTy.bits .f32 = 32 ∨ (Rect.block (s := S1x4x768) S1x4x768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x4x768.size a ≤ S8x4x768.size a
  hwx0_5 : ∀ i : grid0.Coords, EltTy.bits .f32 = 32 ∨ (Rect.block (s := S8x4x768) S1x4x768.size (cc0_transform_5 i) (hinb0_5 i)).WholeWords (EltTy.packing .f32)

variable [Facts₀]

def dot_S1024x768_S768x4_S1024x4_1_0_0_1_n_n : DotDims S1024x768 S768x4 S1024x4 where
  lhsContracting := [1]
  rhsContracting := [0]
  lhsNonContracting := [0]
  rhsNonContracting := [1]
  lhsBatch := []
  rhsBatch := []
  wf := dot_S1024x768_S768x4_S1024x4_1_0_0_1_n_n_wf
def dot_S1024x4_S1024x768_S4x768_0_0_1_1_n_n : DotDims S1024x4 S1024x768 S4x768 where
  lhsContracting := [0]
  rhsContracting := [0]
  lhsNonContracting := [1]
  rhsNonContracting := [1]
  lhsBatch := []
  rhsBatch := []
  wf := dot_S1024x4_S1024x768_S4x768_0_0_1_1_n_n_wf

abbrev win0_0 : Pipeline.Window sig grid0 :=
  Pipeline.Window.ofSpec (Memref.whole main_arg0) S1x4096x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S768x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S1x4x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S1x4x768.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x4096x768 : Shape := ⟨3, ![8, 4096, 768]⟩
abbrev S1x4x768 : Shape := ⟨3, ![1, 4, 768]⟩
abbrev S768 : Shape := ⟨1, ![768]⟩
abbrev S_ : Shape := ⟨0, ![]⟩
abbrev S8x4096 : Shape := ⟨2, ![8, 4096]⟩
abbrev S8x4096x1 : Shape := ⟨3, ![8, 4096, 1]⟩
abbrev S1x1x768 : Shape := ⟨3, ![1, 1, 768]⟩
abbrev S1x4 : Shape := ⟨2, ![1, 4]⟩
abbrev S1x4x1 : Shape := ⟨3, ![1, 4, 1]⟩
abbrev S4x768 : Shape := ⟨2, ![4, 768]⟩
abbrev S8x4096x4 : Shape := ⟨3, ![8, 4096, 4]⟩
abbrev S8x4x768 : Shape := ⟨3, ![8, 4, 768]⟩

abbrev nBuf : Space → Nat
  | .hbm => 115
  | .vmem => 0
  | .smem => 0
  | _ => 0

abbrev bufTy : (tb : Table) → Fin (tcTables nBuf tb) → BufTy
  | .hbm, ⟨0, _⟩ => ⟨S8x4096x768, .f32⟩
  | .hbm, ⟨1, _⟩ => ⟨S1x4x768, .f32⟩
  | .hbm, ⟨2, _⟩ => ⟨S1x4x768, .f32⟩
  | .hbm, ⟨3, _⟩ => ⟨S768, .f32⟩
  | .hbm, ⟨4, _⟩ => ⟨S768, .f32⟩
  | .hbm, ⟨5, _⟩ => ⟨S768, .f32⟩
  | .hbm, ⟨6, _⟩ => ⟨S768, .f32⟩
  | .hbm, ⟨7, _⟩ => ⟨S_, .f32⟩
  | .hbm, ⟨8, _⟩ => ⟨S8x4096, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S_, .i32⟩
  | .hbm, ⟨14, _⟩ => ⟨S_, .f32⟩
  | .hbm, ⟨15, _⟩ => ⟨S8x4096, .f32⟩
  | .hbm, ⟨16, _⟩ => ⟨S8x4096x1, .f32⟩
  | .hbm, ⟨17, _⟩ => ⟨S_, .f32⟩
  | .hbm, ⟨18, _⟩ => ⟨S8x4096x1, .f32⟩
  | .hbm, ⟨19, _⟩ => ⟨S8x4096x1, .f32⟩
  | .hbm, ⟨20, _⟩ => ⟨S8x4096x768, .f32⟩
  | .hbm, ⟨21, _⟩ => ⟨S8x4096x768, .f32⟩
  | .hbm, ⟨22, _⟩ => ⟨S8x4096x768, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S8x4096, .f32⟩
  | .hbm, ⟨28, _⟩ => ⟨S8x4096x1, .f32⟩
  | .hbm, ⟨29, _⟩ => ⟨S8x4096x1, .f32⟩
  | .hbm, ⟨30, _⟩ => ⟨S8x4096x1, .f32⟩
  | .hbm, ⟨31, _⟩ => ⟨S_, .f32⟩
  | .hbm, ⟨32, _⟩ => ⟨S_, .i1⟩
  | .hbm, ⟨33, _⟩ => ⟨S_, .f32⟩
  | .hbm, ⟨34, _⟩ => ⟨S_, .f32⟩
  | .hbm, ⟨35, _⟩ => ⟨S8x4096x1, .f32⟩
  | .hbm, ⟨36, _⟩ => ⟨S8x4096x1, .f32⟩
  | .hbm, ⟨37, _⟩ => ⟨S8x4096x768, .f32⟩
  | .hbm, ⟨38, _⟩ => ⟨S8x4096x768, .f32⟩
  | .hbm, ⟨39, _⟩ => ⟨S_, .f32⟩
  | .hbm, ⟨40, _⟩ => ⟨S8x4096x1, .f32⟩
  | .hbm, ⟨41, _⟩ => ⟨S8x4096x1, .f32⟩
  | .hbm, ⟨42, _⟩ => ⟨S8x4096x1, .f32⟩
  | .hbm, ⟨43, _⟩ => ⟨S8x4096x768, .f32⟩
  | .hbm, ⟨44, _⟩ => ⟨S8x4096x768, .f32⟩
  | .hbm, ⟨45, _⟩ => ⟨S1x1x768, .f32⟩
  | .hbm, ⟨46, _⟩ => ⟨S8x4096x768, .f32⟩
  | .hbm, ⟨47, _⟩ => ⟨S8x4096x768, .f32⟩
  | .hbm, ⟨48, _⟩ => ⟨S1x1x768, .f32⟩
  | .hbm, ⟨49, _⟩ => ⟨S8x4096x768, .f32⟩
  | .hbm, ⟨50, _⟩ => ⟨S8x4096x768, .f32⟩
  | .hbm, ⟨51, _⟩ => ⟨S_, .f32⟩
  | .hbm, ⟨52, _⟩ => ⟨S1x4, .f32⟩
  | .hbm, ⟨53, _⟩ => ⟨S1x4x1, .f32⟩
  | .hbm, ⟨54, _⟩ => ⟨S_, .f32⟩
  | .hbm, ⟨55, _⟩ => ⟨S1x4x1, .f32⟩
  | .hbm, ⟨56, _⟩ => ⟨S1x4x1, .f32⟩
  | .hbm, ⟨57, _⟩ => ⟨S_, .i32⟩
  | .hbm, ⟨58, _⟩ => ⟨S_, .f32⟩
  | .hbm, ⟨59, _⟩ => ⟨S1x4, .f32⟩
  | .hbm, ⟨60, _⟩ => ⟨S1x4x1, .f32⟩
  | .hbm, ⟨61, _⟩ => ⟨S_, .f32⟩
  | .hbm, ⟨62, _⟩ => ⟨S1x4x1, .f32⟩
  | .hbm, ⟨63, _⟩ => ⟨S1x4x1, .f32⟩
  | .hbm, ⟨64, _⟩ => ⟨S1x4x768, .f32⟩
  | .hbm, ⟨65, _⟩ => ⟨S1x4x768, .f32⟩
  | .hbm, ⟨66, _⟩ => ⟨S1x4x768, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S1x4, .f32⟩
  | .hbm, ⟨72, _⟩ => ⟨S1x4x1, .f32⟩
  | .hbm, ⟨73, _⟩ => ⟨S1x4x1, .f32⟩
  | .hbm, ⟨74, _⟩ => ⟨S1x4x1, .f32⟩
  | .hbm, ⟨75, _⟩ => ⟨S_, .f32⟩
  | .hbm, ⟨76, _⟩ => ⟨S_, .i1⟩
  | .hbm, ⟨77, _⟩ => ⟨S_, .f32⟩
  | .hbm, ⟨78, _⟩ => ⟨S_, .f32⟩
  | .hbm, ⟨79, _⟩ => ⟨S1x4x1, .f32⟩
  | .hbm, ⟨80, _⟩ => ⟨S1x4x1, .f32⟩
  | .hbm, ⟨81, _⟩ => ⟨S1x4x768, .f32⟩
  | .hbm, ⟨82, _⟩ => ⟨S1x4x768, .f32⟩
  | .hbm, ⟨83, _⟩ => ⟨S_, .f32⟩
  | .hbm, ⟨84, _⟩ => ⟨S1x4x1, .f32⟩
  | .hbm, ⟨85, _⟩ => ⟨S1x4x1, .f32⟩
  | .hbm, ⟨86, _⟩ => ⟨S1x4x1, .f32⟩
  | .hbm, ⟨87, _⟩ => ⟨S1x4x768, .f32⟩
  | .hbm, ⟨88, _⟩ => ⟨S1x4x768, .f32⟩
  | .hbm, ⟨89, _⟩ => ⟨S1x1x768, .f32⟩
  | .hbm, ⟨90, _⟩ => ⟨S1x4x768, .f32⟩
  | .hbm, ⟨91, _⟩ => ⟨S1x4x768, .f32⟩
  | .hbm, ⟨92, _⟩ => ⟨S1x1x768, .f32⟩
  | .hbm, ⟨93, _⟩ => ⟨S1x4x768, .f32⟩
  | .hbm, ⟨94, _⟩ => ⟨S1x4x768, .f32⟩
  | .hbm, ⟨95, _⟩ => ⟨S_, .f32⟩
  | .hbm, ⟨96, _⟩ => ⟨S4x768, .f32⟩
  | .hbm, ⟨97, _⟩ => ⟨S8x4096x4, .f32⟩
  | .hbm, ⟨98, _⟩ => ⟨S_, .f32⟩
  | .hbm, ⟨99, _⟩ => ⟨S8x4096, .f32⟩
  | .hbm, ⟨100, _⟩ => ⟨S_, .f32⟩
  | .hbm, ⟨101, _⟩ => ⟨S8x4096, .f32⟩
  | .hbm, ⟨102, _⟩ => ⟨S8x4096, .f32⟩
  | .hbm, ⟨103, _⟩ => ⟨S8x4096x1, .f32⟩
  | .hbm, ⟨104, _⟩ => ⟨S8x4096x4, .f32⟩
  | .hbm, ⟨105, _⟩ => ⟨S8x4096x4, .f32⟩
  | .hbm, ⟨106, _⟩ => ⟨S8x4096x4, .f32⟩
  | .hbm, ⟨107, _⟩ => ⟨S_, .f32⟩
  | .hbm, ⟨108, _⟩ => ⟨S8x4096, .f32⟩
  | .hbm, ⟨109, _⟩ => ⟨S8x4096x1, .f32⟩
  | .hbm, ⟨110, _⟩ => ⟨S8x4096x4, .f32⟩
  | .hbm, ⟨111, _⟩ => ⟨S8x4096x4, .f32⟩
  | .hbm, ⟨112, _⟩ => ⟨S8x4x768, .f32⟩
  | .hbm, ⟨113, _⟩ => ⟨S8x4x768, .f32⟩
  | .hbm, ⟨114, _⟩ => ⟨S8x4x768, .f32⟩
  | _, _ => ⟨S8x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_call0_cst : Ref sig .tc := ⟨.hbm, 14, rfl⟩
abbrev main_call0_v0 : Ref sig .tc := ⟨.hbm, 15, rfl⟩
abbrev main_call0_v1 : Ref sig .tc := ⟨.hbm, 16, rfl⟩
abbrev main_call0_cst_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_cst_1 : Ref sig .tc := ⟨.hbm, 24, rfl⟩
abbrev main_call0_v8 : Ref sig .tc := ⟨.hbm, 25, rfl⟩
abbrev main_call0_cst_2 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_v12 : Ref sig .tc := ⟨.hbm, 30, rfl⟩
abbrev main_call0_cst_3 : Ref sig .tc := ⟨.hbm, 31, rfl⟩
abbrev main_call0_v13 : Ref sig .tc := ⟨.hbm, 32, rfl⟩
abbrev main_call0_cst_4 : Ref sig .tc := ⟨.hbm, 33, rfl⟩
abbrev main_call0_call0_v0 : Ref sig .tc := ⟨.hbm, 34, rfl⟩
abbrev main_call0_call0_v1 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_cst_1 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_cst_2 : Ref sig .tc := ⟨.hbm, 51, rfl⟩
abbrev main_v18 : Ref sig .tc := ⟨.hbm, 52, rfl⟩
abbrev main_v19 : Ref sig .tc := ⟨.hbm, 53, rfl⟩
abbrev main_cst_3 : Ref sig .tc := ⟨.hbm, 54, rfl⟩
abbrev main_v20 : Ref sig .tc := ⟨.hbm, 55, rfl⟩
abbrev main_v21 : Ref sig .tc := ⟨.hbm, 56, rfl⟩
abbrev main_c_4 : Ref sig .tc := ⟨.hbm, 57, rfl⟩
abbrev main_call1_cst : Ref sig .tc := ⟨.hbm, 58, rfl⟩
abbrev main_call1_v0 : Ref sig .tc := ⟨.hbm, 59, rfl⟩
abbrev main_call1_v1 : Ref sig .tc := ⟨.hbm, 60, rfl⟩
abbrev main_call1_cst_0 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_call1_v5 : Ref sig .tc := ⟨.hbm, 65, rfl⟩
abbrev main_call1_v6 : Ref sig .tc := ⟨.hbm, 66, rfl⟩
abbrev main_call1_v7 : Ref sig .tc := ⟨.hbm, 67, rfl⟩
abbrev main_call1_cst_1 : Ref sig .tc := ⟨.hbm, 68, rfl⟩
abbrev main_call1_v8 : Ref sig .tc := ⟨.hbm, 69, rfl⟩
abbrev main_call1_cst_2 : Ref sig .tc := ⟨.hbm, 70, rfl⟩
abbrev main_call1_v9 : Ref sig .tc := ⟨.hbm, 71, rfl⟩
abbrev main_call1_v10 : Ref sig .tc := ⟨.hbm, 72, rfl⟩
abbrev main_call1_v11 : Ref sig .tc := ⟨.hbm, 73, rfl⟩
abbrev main_call1_v12 : Ref sig .tc := ⟨.hbm, 74, rfl⟩
abbrev main_call1_cst_3 : Ref sig .tc := ⟨.hbm, 75, rfl⟩
abbrev main_call1_v13 : Ref sig .tc := ⟨.hbm, 76, rfl⟩
abbrev main_call1_cst_4 : Ref sig .tc := ⟨.hbm, 77, rfl⟩
abbrev main_call1_call0_v0 : Ref sig .tc := ⟨.hbm, 78, rfl⟩
abbrev main_call1_call0_v1 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_cst_5 : Ref sig .tc := ⟨.hbm, 83, rfl⟩
abbrev main_v25 : Ref sig .tc := ⟨.hbm, 84, rfl⟩
abbrev main_v26 : Ref sig .tc := ⟨.hbm, 85, rfl⟩
abbrev main_v27 : Ref sig .tc := ⟨.hbm, 86, rfl⟩
abbrev main_v28 : Ref sig .tc := ⟨.hbm, 87, rfl⟩
abbrev main_v29 : Ref sig .tc := ⟨.hbm, 88, rfl⟩
abbrev main_v30 : Ref sig .tc := ⟨.hbm, 89, rfl⟩
abbrev main_v31 : Ref sig .tc := ⟨.hbm, 90, rfl⟩
abbrev main_v32 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_cst_6 : Ref sig .tc := ⟨.hbm, 95, rfl⟩
abbrev main_v36 : Ref sig .tc := ⟨.hbm, 96, rfl⟩
abbrev main_v37 : Ref sig .tc := ⟨.hbm, 97, rfl⟩
abbrev main_cst_7 : Ref sig .tc := ⟨.hbm, 98, rfl⟩
abbrev main_v38 : Ref sig .tc := ⟨.hbm, 99, rfl⟩
abbrev main_cst_8 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_cst_9 : Ref sig .tc := ⟨.hbm, 107, rfl⟩
abbrev main_v45 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_v50 : Ref sig .tc := ⟨.hbm, 113, rfl⟩
abbrev main_v51 : Ref sig .tc := ⟨.hbm, 114, rfl⟩

abbrev nD : Nat := 1
abbrev τ : Topo := Topo.v7x

variable {F : FTy → Type} [FloatOps F]

class Facts₀ : Prop where
  reducesTo_S8x4096x768_S8x4096_d2 : S8x4096x768.ReducesTo [2] S8x4096
  h_S_ : 0 < S_.numel
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  bcast_S8x4096x1_S8x4096x768_0_1_2 : S8x4096x1.BroadcastsInDim S8x4096x768 (![0, 1, 2] : Fin 3 → Fin S8x4096x768.rank)
  bcast_S768_S1x1x768_2 : S768.BroadcastsInDim S1x1x768 (![2] : Fin 1 → Fin S1x1x768.rank)
  bcast_S1x1x768_S8x4096x768_0_1_2 : S1x1x768.BroadcastsInDim S8x4096x768 (![0, 1, 2] : Fin 3 → Fin S8x4096x768.rank)
  reducesTo_S1x4x768_S1x4_d2 : S1x4x768.ReducesTo [2] S1x4
  bcast_S1x4_S1x4x1_0_1 : S1x4.BroadcastsInDim S1x4x1 (![0, 1] : Fin 2 → Fin S1x4x1.rank)
  bcast_S_S1x4x1 : S_.BroadcastsInDim S1x4x1 (![] : Fin 0 → Fin S1x4x1.rank)
  bcast_S1x4x1_S1x4x768_0_1_2 : S1x4x1.BroadcastsInDim S1x4x768 (![0, 1, 2] : Fin 3 → Fin S1x4x768.rank)
  bcast_S1x1x768_S1x4x768_0_1_2 : S1x1x768.BroadcastsInDim S1x4x768 (![0, 1, 2] : Fin 3 → Fin S1x4x768.rank)
  reducesTo_S1x4x768_S4x768_d0 : S1x4x768.ReducesTo [0] S4x768
  reducesTo_S8x4096x4_S8x4096_d2 : S8x4096x4.ReducesTo [2] S8x4096
  bcast_S_S8x4096 : S_.BroadcastsInDim S8x4096 (![] : Fin 0 → Fin S8x4096.rank)
  bcast_S8x4096x1_S8x4096x4_0_1_2 : S8x4096x1.BroadcastsInDim S8x4096x4 (![0, 1, 2] : Fin 3 → Fin S8x4096x4.rank)
  bcast_S1x4x768_S8x4x768_0_1_2 : S1x4x768.BroadcastsInDim S8x4x768 (![0, 1, 2] : Fin 3 → Fin S8x4x768.rank)
  dot_S8x4096x768_S4x768_S8x4096x4_2_1_01_0_n_n_wf : DotDims.WF S8x4096x768 S4x768 S8x4096x4 [2] [1] [0, 1] [0] [] []
  dot_S8x4096x4_S8x4096x768_S8x4x768_1_1_2_2_0_0_wf : DotDims.WF S8x4096x4 S8x4096x768 S8x4x768 [1] [1] [2] [2] [0] [0]

variable [Facts₀]

def dot_S8x4096x768_S4x768_S8x4096x4_2_1_01_0_n_n : DotDims S8x4096x768 S4x768 S8x4096x4 where
  lhsContracting := [2]
  rhsContracting := [1]
  lhsNonContracting := [0, 1]
  rhsNonContracting := [0]
  lhsBatch := []
  rhsBatch := []
  wf := dot_S8x4096x768_S4x768_S8x4096x4_2_1_01_0_n_n_wf
def dot_S8x4096x4_S8x4096x768_S8x4x768_1_1_2_2_0_0 : DotDims S8x4096x4 S8x4096x768 S8x4x768 where
  lhsContracting := [1]
  rhsContracting := [1]
  lhsNonContracting := [2]
  rhsNonContracting := [2]
  lhsBatch := [0]
  rhsBatch := [0]
  wf := dot_S8x4096x4_S8x4096x768_S8x4x768_1_1_2_2_0_0_wf

class Facts : Prop extends Facts₀ where

variable [Facts]
-- ==== Proof.RefTerm.lean ====
import proofs.«422546_j29686813950006_3_alg».proof.ReferenceIdeal

/-!
# The reference's result as one function of its arguments

The host program is a straight line; its result is the composition below, stage by stage: the layer norm of the
input rows (`lnX`), the layer norm of the slot keys (`knorm`), the scores, their softmax over the four slots
(`probs`), the weighted sum of the rows and the slot values added (`refOut`).
-/

noncomputable section

namespace Cert.ReferenceIdeal.Term

open Cert.ReferenceIdeal Idealize.ShloMosaic Cert.ReferenceIdeal.Facts₀ Cert.ReferenceIdeal.Facts

variable {F : FTy → Type} [FloatOps F] [Cert.ReferenceIdeal.Facts]

/-- The divisor of the variance: `768 - ddof` with `ddof = 0`, as the program computes it. -/
def denom : FVec F S_ .f32 := subf (constant S_ .f32 0x44400000#32) (sitofp .f32 (constantI S_ 32 0#32))

/-! ## The input rows -/

/-- Row means, kept as a unit last axis. -/
def meanX (x : FVec F S8x4096x768 .f32) : FVec F S8x4096x1 .f32 :=
  Host.divf (broadcastInDim S8x4096x1 ![0, 1] bcast_S8x4096_S8x4096x1_0_1
      (Host.reduceAdd x (constant S_ .f32 0x00000000#32) reducesTo_S8x4096x768_S8x4096_d2 h_S_))
    (broadcastInDim S8x4096x1 ![] bcast_S_S8x4096x1 (constant S_ .f32 0x44400000#32))

/-- Deviations from the row mean. -/
def devX (x : FVec F S8x4096x768 .f32) : FVec F S8x4096x768 .f32 :=
  subf x (broadcastInDim S8x4096x768 ![0, 1, 2] bcast_S8x4096x1_S8x4096x768_0_1_2 (meanX x))

/-- Row variances: the sum of squared deviations over the divisor, where the divisor is positive. -/
def varX (x : FVec F S8x4096x768 .f32) : FVec F S8x4096x1 .f32 :=
  select (broadcastInDim S8x4096x1 ![] bcast_S_S8x4096x1 (cmpf .ogt (denom (F := F)) (constant S_ .f32 0x00000000#32)))
    (Host.divf (broadcastInDim S8x4096x1 ![0, 1] bcast_S8x4096_S8x4096x1_0_1
        (Host.reduceAdd (mulf (devX x) (devX x)) (constant S_ .f32 0x00000000#32) reducesTo_S8x4096x768_S8x4096_d2 h_S_))
      (broadcastInDim S8x4096x1 ![] bcast_S_S8x4096x1 (denom (F := F))))
    (broadcastInDim S8x4096x1 ![] bcast_S_S8x4096x1 (id (constant S_ .f32 0x7FC00000#32)))

/-- The layer norm of the rows with scale `w` and shift `b`. -/
def lnX (x : FVec F S8x4096x768 .f32) (w b : FVec F S768 .f32) : FVec F S8x4096x768 .f32 :=
  addf (mulf (mulf (devX x)
        (broadcastInDim S8x4096x768 ![0, 1, 2] bcast_S8x4096x1_S8x4096x768_0_1_2
          (Host.rsqrt (addf (varX x) (broadcastInDim S8x4096x1 ![] bcast_S_S8x4096x1 (constant S_ .f32 0x3727C5AC#32))))))
      (broadcastInDim S8x4096x768 ![0, 1, 2] bcast_S1x1x768_S8x4096x768_0_1_2 (broadcastInDim S1x1x768 ![2] bcast_S768_S1x1x768_2 w)))
    (broadcastInDim S8x4096x768 ![0, 1, 2] bcast_S1x1x768_S8x4096x768_0_1_2 (broadcastInDim S1x1x768 ![2] bcast_S768_S1x1x768_2 b))

/-! ## The slot keys -/

def meanS (x : FVec F S1x4x768 .f32) : FVec F S1x4x1 .f32 :=
  Host.divf (broadcastInDim S1x4x1 ![0, 1] bcast_S1x4_S1x4x1_0_1
      (Host.reduceAdd x (constant S_ .f32 0x00000000#32) reducesTo_S1x4x768_S1x4_d2 h_S_))
    (broadcastInDim S1x4x1 ![] bcast_S_S1x4x1 (constant S_ .f32 0x44400000#32))

def devS (x : FVec F S1x4x768 .f32) : FVec F S1x4x768 .f32 :=
  subf x (broadcastInDim S1x4x768 ![0, 1, 2] bcast_S1x4x1_S1x4x768_0_1_2 (meanS x))

def varS (x : FVec F S1x4x768 .f32) : FVec F S1x4x1 .f32 :=
  select (broadcastInDim S1x4x1 ![] bcast_S_S1x4x1 (cmpf .ogt (denom (F := F)) (constant S_ .f32 0x00000000#32)))
    (Host.divf (broadcastInDim S1x4x1 ![0, 1] bcast_S1x4_S1x4x1_0_1
        (Host.reduceAdd (mulf (devS x) (devS x)) (constant S_ .f32 0x00000000#32) reducesTo_S1x4x768_S1x4_d2 h_S_))
      (broadcastInDim S1x4x1 ![] bcast_S_S1x4x1 (denom (F := F))))
    (broadcastInDim S1x4x1 ![] bcast_S_S1x4x1 (id (constant S_ .f32 0x7FC00000#32)))

/-- The layer norm of the four slot keys. -/
def knorm (sk : FVec F S1x4x768 .f32) (ws bs : FVec F S768 .f32) : FVec F S1x4x768 .f32 :=
  addf (mulf (mulf (devS sk)
        (broadcastInDim S1x4x768 ![0, 1, 2] bcast_S1x4x1_S1x4x768_0_1_2
          (Host.rsqrt (addf (varS sk) (broadcastInDim S1x4x1 ![] bcast_S_S1x4x1 (constant S_ .f32 0x3727C5AC#32))))))
      (broadcastInDim S1x4x768 ![0, 1, 2] bcast_S1x1x768_S1x4x768_0_1_2 (broadcastInDim S1x1x768 ![2] bcast_S768_S1x1x768_2 ws)))
    (broadcastInDim S1x4x768 ![0, 1, 2] bcast_S1x1x768_S1x4x768_0_1_2 (broadcastInDim S1x1x768 ![2] bcast_S768_S1x1x768_2 bs))

/-! ## Scores, softmax, update -/

/-- Scores of every normalised row against the four keys (the leading unit axis of the keys summed away). -/
def scores (xn : FVec F S8x4096x768 .f32) (kn : FVec F S1x4x768 .f32) : FVec F S8x4096x4 .f32 :=
  Host.dotGeneral dot_S8x4096x768_S4x768_S8x4096x4_2_1_01_0_n_n none xn
    (Host.reduceAdd kn (constant S_ .f32 0x00000000#32) reducesTo_S1x4x768_S4x768_d0 h_S_)

/-- Scores minus their row maximum, exponentiated. -/
def expo (s : FVec F S8x4096x4 .f32) : FVec F S8x4096x4 .f32 :=
  Host.exp (subf s (broadcastInDim S8x4096x4 ![0, 1, 2] bcast_S8x4096x1_S8x4096x4_0_1_2
    (broadcastInDim S8x4096x1 ![0, 1] bcast_S8x4096_S8x4096x1_0_1
      (maximumf (broadcastInDim S8x4096 ![] bcast_S_S8x4096 (constant S_ .f32 0xFF800000#32))
        (Host.reduce FloatOps.maximumf s (constant S_ .f32 0xFF800000#32) reducesTo_S8x4096x4_S8x4096_d2 h_S_)))))

/-- The softmax over the four slots. -/
def probs (s : FVec F S8x4096x4 .f32) : FVec F S8x4096x4 .f32 :=
  Host.divf (expo s) (broadcastInDim S8x4096x4 ![0, 1, 2] bcast_S8x4096x1_S8x4096x4_0_1_2
    (broadcastInDim S8x4096x1 ![0, 1] bcast_S8x4096_S8x4096x1_0_1
      (Host.reduceAdd (expo s) (constant S_ .f32 0x00000000#32) reducesTo_S8x4096x4_S8x4096_d2 h_S_)))

/-- The program's result: the slot values plus, per batch and slot, the softmax-weighted sum of the rows. -/
def refOut (x : FVec F S8x4096x768 .f32) (sk sv : FVec F S1x4x768 .f32) (w b ws bs : FVec F S768 .f32) : FVec F S8x4x768 .f32 :=
  addf (broadcastInDim S8x4x768 ![0, 1, 2] bcast_S1x4x768_S8x4x768_0_1_2 sv)
    (Host.dotGeneral dot_S8x4096x4_S8x4096x768_S8x4x768_1_1_2_2_0_0 none (probs (scores (lnX x w b) (knorm sk ws bs))) x)

end Cert.ReferenceIdeal.Term

end
-- ==== Proof.RefRun.lean ====
import proofs.«422546_j29686813950006_3_alg».proof.Proof.Gen.ReferenceIdeal
import proofs.«422546_j29686813950006_3_alg».proof.Proof.RefTerm
import Idealize.ShloMosaic.Lib.StableHlo.Run

/-!
# The reference program's run

The program is a straight line of host operations (the two variance functions it calls are straight lines too, laid
out here at their call sites). Every weakly fair execution terminates with the result buffer at the composed
function `Term.refOut` of the arguments and the arguments unchanged.
-/

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The program's operations in order, the calls laid out: the mean of the rows (six operations and the integer
    zero), the rows' variance (twenty operations of the variance function over the first call's buffers, then the three
    of its selection), the rows' layer norm; the same for the slot keys over the second call's buffers; the scores, their
    softmax over the slots, the weighted sum and the slot values added. -/
abbrev ops : List (HloOp τ sig (Elt F)) :=
  [ nullary main_cst (constant S_ .f32 0x00000000#32),
    binary main_arg0 main_cst main_v0 ((fun x v => Host.reduceAdd x v reducesTo_S8x4096x768_S8x4096_d2 h_S_) : (⟨S8x4096x768, .f32⟩ : BufTy).Contents (Elt F) → (⟨S_, .f32⟩ : BufTy).Contents (Elt F) → (⟨S8x4096, .f32⟩ : BufTy).Contents (Elt F)),
    unary main_v0 main_v1 (broadcastInDim S8x4096x1 ![0, 1] bcast_S8x4096_S8x4096x1_0_1 : (⟨S8x4096, .f32⟩ : BufTy).Contents (Elt F) → (⟨S8x4096x1, .f32⟩ : BufTy).Contents (Elt F)),
    nullary main_cst_0 (constant S_ .f32 0x44400000#32),
    unary main_cst_0 main_v2 (broadcastInDim S8x4096x1 ![] bcast_S_S8x4096x1 : (⟨S_, .f32⟩ : BufTy).Contents (Elt F) → (⟨S8x4096x1, .f32⟩ : BufTy).Contents (Elt F)),
    binary main_v1 main_v2 main_v3 (Host.divf : (⟨S8x4096x1, .f32⟩ : BufTy).Contents (Elt F) → (⟨S8x4096x1, .f32⟩ : BufTy).Contents (Elt F) → (⟨S8x4096x1, .f32⟩ : BufTy).Contents (Elt F)),
    nullary main_c (constantI S_ 32 0#32),
    TRef.nullary main_call0.cst (constant S_ .f32 0x00000000#32),
    TRef.binary (.of main_arg0 : TRef sig ⟨S8x4096x768, .f32⟩) main_call0.cst main_call0.v0 (fun x v => Host.reduceAdd x v reducesTo_S8x4096x768_S8x4096_d2 h_S_),
    TRef.unary main_call0.v0 main_call0.v1 (broadcastInDim S8x4096x1 ![0, 1] bcast_S8x4096_S8x4096x1_0_1),
    TRef.nullary main_call0.cst_0 (constant S_ .f32 0x44400000#32),
    TRef.unary main_call0.cst_0 main_call0.v2 (broadcastInDim S8x4096x1 ![] bcast_S_S8x4096x1),
    TRef.binary main_call0.v1 main_call0.v2 main_call0.v3 Host.divf,
    TRef.unary main_call0.v3 main_call0.v4 (broadcastInDim S8x4096x768 ![0, 1, 2] bcast_S8x4096x1_S8x4096x768_0_1_2),
    TRef.binary (.of main_arg0 : TRef sig ⟨S8x4096x768, .f32⟩) main_call0.v4 main_call0.v5 subf,
    TRef.binary main_call0.v5 main_call0.v5 main_call0.v6 mulf,
    TRef.unary (.of main_c : TRef sig ⟨S_, .i32⟩) main_call0.v7 (sitofp .f32),
    TRef.nullary main_call0.cst_1 (constant S_ .f32 0x44400000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S8x4096x768_S8x4096_d2 h_S_),
    TRef.unary main_call0.v9 main_call0.v10 (broadcastInDim S8x4096x1 ![0, 1] bcast_S8x4096_S8x4096x1_0_1),
    TRef.unary main_call0.v8 main_call0.v11 (broadcastInDim S8x4096x1 ![] bcast_S_S8x4096x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S8x4096x1 ![] bcast_S_S8x4096x1),
    TRef.ternary main_call0.v13 main_call0.v12 main_call0.call0.v1 main_call0.call0.v2 (fun p a b => select (broadcastInDim S8x4096x1 ![] bcast_S_S8x4096x1 p) a b),
    unary main_v3 main_v5 (broadcastInDim S8x4096x768 ![0, 1, 2] bcast_S8x4096x1_S8x4096x768_0_1_2 : (⟨S8x4096x1, .f32⟩ : BufTy).Contents (Elt F) → (⟨S8x4096x768, .f32⟩ : BufTy).Contents (Elt F)),
    binary main_arg0 main_v5 main_v6 (subf : (⟨S8x4096x768, .f32⟩ : BufTy).Contents (Elt F) → (⟨S8x4096x768, .f32⟩ : BufTy).Contents (Elt F) → (⟨S8x4096x768, .f32⟩ : BufTy).Contents (Elt F)),
    nullary main_cst_1 (constant S_ .f32 0x3727C5AC#32),
    unary main_cst_1 main_v7 (broadcastInDim S8x4096x1 ![] bcast_S_S8x4096x1 : (⟨S_, .f32⟩ : BufTy).Contents (Elt F) → (⟨S8x4096x1, .f32⟩ : BufTy).Contents (Elt F)),
    binary main_v4 main_v7 main_v8 (addf : (⟨S8x4096x1, .f32⟩ : BufTy).Contents (Elt F) → (⟨S8x4096x1, .f32⟩ : BufTy).Contents (Elt F) → (⟨S8x4096x1, .f32⟩ : BufTy).Contents (Elt F)),
    unary main_v8 main_v9 (Host.rsqrt : (⟨S8x4096x1, .f32⟩ : BufTy).Contents (Elt F) → (⟨S8x4096x1, .f32⟩ : BufTy).Contents (Elt F)),
    unary main_v9 main_v10 (broadcastInDim S8x4096x768 ![0, 1, 2] bcast_S8x4096x1_S8x4096x768_0_1_2 : (⟨S8x4096x1, .f32⟩ : BufTy).Contents (Elt F) → (⟨S8x4096x768, .f32⟩ : BufTy).Contents (Elt F)),
    binary main_v6 main_v10 main_v11 (mulf : (⟨S8x4096x768, .f32⟩ : BufTy).Contents (Elt F) → (⟨S8x4096x768, .f32⟩ : BufTy).Contents (Elt F) → (⟨S8x4096x768, .f32⟩ : BufTy).Contents (Elt F)),
    unary main_arg3 main_v12 (broadcastInDim S1x1x768 ![2] bcast_S768_S1x1x768_2 : (⟨S768, .f32⟩ : BufTy).Contents (Elt F) → (⟨S1x1x768, .f32⟩ : BufTy).Contents (Elt F)),
    unary main_v12 main_v13 (broadcastInDim S8x4096x768 ![0, 1, 2] bcast_S1x1x768_S8x4096x768_0_1_2 : (⟨S1x1x768, .f32⟩ : BufTy).Contents (Elt F) → (⟨S8x4096x768, .f32⟩ : BufTy).Contents (Elt F)),
    binary main_v11 main_v13 main_v14 (mulf : (⟨S8x4096x768, .f32⟩ : BufTy).Contents (Elt F) → (⟨S8x4096x768, .f32⟩ : BufTy).Contents (Elt F) → (⟨S8x4096x768, .f32⟩ : BufTy).Contents (Elt F)),
    unary main_arg4 main_v15 (broadcastInDim S1x1x768 ![2] bcast_S768_S1x1x768_2 : (⟨S768, .f32⟩ : BufTy).Contents (Elt F) → (⟨S1x1x768, .f32⟩ : BufTy).Contents (Elt F)),
    unary main_v15 main_v16 (broadcastInDim S8x4096x768 ![0, 1, 2] bcast_S1x1x768_S8x4096x768_0_1_2 : (⟨S1x1x768, .f32⟩ : BufTy).Contents (Elt F) → (⟨S8x4096x768, .f32⟩ : BufTy).Contents (Elt F)),
    binary main_v14 main_v16 main_v17 (addf : (⟨S8x4096x768, .f32⟩ : BufTy).Contents (Elt F) → (⟨S8x4096x768, .f32⟩ : BufTy).Contents (Elt F) → (⟨S8x4096x768, .f32⟩ : BufTy).Contents (Elt F)),
    nullary main_cst_2 (constant S_ .f32 0x00000000#32),
    binary main_arg1 main_cst_2 main_v18 ((fun x v => Host.reduceAdd x v reducesTo_S1x4x768_S1x4_d2 h_S_) : (⟨S1x4x768, .f32⟩ : BufTy).Contents (Elt F) → (⟨S_, .f32⟩ : BufTy).Contents (Elt F) → (⟨S1x4, .f32⟩ : BufTy).Contents (Elt F)),
    unary main_v18 main_v19 (broadcastInDim S1x4x1 ![0, 1] bcast_S1x4_S1x4x1_0_1 : (⟨S1x4, .f32⟩ : BufTy).Contents (Elt F) → (⟨S1x4x1, .f32⟩ : BufTy).Contents (Elt F)),
    nullary main_cst_3 (constant S_ .f32 0x44400000#32),
    unary main_cst_3 main_v20 (broadcastInDim S1x4x1 ![] bcast_S_S1x4x1 : (⟨S_, .f32⟩ : BufTy).Contents (Elt F) → (⟨S1x4x1, .f32⟩ : BufTy).Contents (Elt F)),
    binary main_v19 main_v20 main_v21 (Host.divf : (⟨S1x4x1, .f32⟩ : BufTy).Contents (Elt F) → (⟨S1x4x1, .f32⟩ : BufTy).Contents (Elt F) → (⟨S1x4x1, .f32⟩ : BufTy).Contents (Elt F)),
    nullary main_c_4 (constantI S_ 32 0#32),
    TRef.nullary main_call1.cst (constant S_ .f32 0x00000000#32),
    TRef.binary (.of main_arg1 : TRef sig ⟨S1x4x768, .f32⟩) main_call1.cst main_call1.v0 (fun x v => Host.reduceAdd x v reducesTo_S1x4x768_S1x4_d2 h_S_),
    TRef.unary main_call1.v0 main_call1.v1 (broadcastInDim S1x4x1 ![0, 1] bcast_S1x4_S1x4x1_0_1),
    TRef.nullary main_call1.cst_0 (constant S_ .f32 0x44400000#32),
    TRef.unary main_call1.cst_0 main_call1.v2 (broadcastInDim S1x4x1 ![] bcast_S_S1x4x1),
    TRef.binary main_call1.v1 main_call1.v2 main_call1.v3 Host.divf,
    TRef.unary main_call1.v3 main_call1.v4 (broadcastInDim S1x4x768 ![0, 1, 2] bcast_S1x4x1_S1x4x768_0_1_2),
    TRef.binary (.of main_arg1 : TRef sig ⟨S1x4x768, .f32⟩) main_call1.v4 main_call1.v5 subf,
    TRef.binary main_call1.v5 main_call1.v5 main_call1.v6 mulf,
    TRef.unary (.of main_c_4 : TRef sig ⟨S_, .i32⟩) main_call1.v7 (sitofp .f32),
    TRef.nullary main_call1.cst_1 (constant S_ .f32 0x44400000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S1x4x768_S1x4_d2 h_S_),
    TRef.unary main_call1.v9 main_call1.v10 (broadcastInDim S1x4x1 ![0, 1] bcast_S1x4_S1x4x1_0_1),
    TRef.unary main_call1.v8 main_call1.v11 (broadcastInDim S1x4x1 ![] bcast_S_S1x4x1),
    TRef.binary main_call1.v10 main_call1.v11 main_call1.v12 Host.divf,
    TRef.nullary main_call1.cst_3 (constant S_ .f32 0x00000000#32),
    TRef.binary main_call1.v8 main_call1.cst_3 main_call1.v13 (cmpf .ogt),
    TRef.nullary main_call1.cst_4 (constant S_ .f32 0x7FC00000#32),
    TRef.unary main_call1.cst_4 main_call1.call0.v0 id,
    TRef.unary main_call1.call0.v0 main_call1.call0.v1 (broadcastInDim S1x4x1 ![] bcast_S_S1x4x1),
    TRef.ternary main_call1.v13 main_call1.v12 main_call1.call0.v1 main_call1.call0.v2 (fun p a b => select (broadcastInDim S1x4x1 ![] bcast_S_S1x4x1 p) a b),
    unary main_v21 main_v23 (broadcastInDim S1x4x768 ![0, 1, 2] bcast_S1x4x1_S1x4x768_0_1_2 : (⟨S1x4x1, .f32⟩ : BufTy).Contents (Elt F) → (⟨S1x4x768, .f32⟩ : BufTy).Contents (Elt F)),
    binary main_arg1 main_v23 main_v24 (subf : (⟨S1x4x768, .f32⟩ : BufTy).Contents (Elt F) → (⟨S1x4x768, .f32⟩ : BufTy).Contents (Elt F) → (⟨S1x4x768, .f32⟩ : BufTy).Contents (Elt F)),
    nullary main_cst_5 (constant S_ .f32 0x3727C5AC#32),
    unary main_cst_5 main_v25 (broadcastInDim S1x4x1 ![] bcast_S_S1x4x1 : (⟨S_, .f32⟩ : BufTy).Contents (Elt F) → (⟨S1x4x1, .f32⟩ : BufTy).Contents (Elt F)),
    binary main_v22 main_v25 main_v26 (addf : (⟨S1x4x1, .f32⟩ : BufTy).Contents (Elt F) → (⟨S1x4x1, .f32⟩ : BufTy).Contents (Elt F) → (⟨S1x4x1, .f32⟩ : BufTy).Contents (Elt F)),
    unary main_v26 main_v27 (Host.rsqrt : (⟨S1x4x1, .f32⟩ : BufTy).Contents (Elt F) → (⟨S1x4x1, .f32⟩ : BufTy).Contents (Elt F)),
    unary main_v27 main_v28 (broadcastInDim S1x4x768 ![0, 1, 2] bcast_S1x4x1_S1x4x768_0_1_2 : (⟨S1x4x1, .f32⟩ : BufTy).Contents (Elt F) → (⟨S1x4x768, .f32⟩ : BufTy).Contents (Elt F)),
    binary main_v24 main_v28 main_v29 (mulf : (⟨S1x4x768, .f32⟩ : BufTy).Contents (Elt F) → (⟨S1x4x768, .f32⟩ : BufTy).Contents (Elt F) → (⟨S1x4x768, .f32⟩ : BufTy).Contents (Elt F)),
    unary main_arg5 main_v30 (broadcastInDim S1x1x768 ![2] bcast_S768_S1x1x768_2 : (⟨S768, .f32⟩ : BufTy).Contents (Elt F) → (⟨S1x1x768, .f32⟩ : BufTy).Contents (Elt F)),
    unary main_v30 main_v31 (broadcastInDim S1x4x768 ![0, 1, 2] bcast_S1x1x768_S1x4x768_0_1_2 : (⟨S1x1x768, .f32⟩ : BufTy).Contents (Elt F) → (⟨S1x4x768, .f32⟩ : BufTy).Contents (Elt F)),
    binary main_v29 main_v31 main_v32 (mulf : (⟨S1x4x768, .f32⟩ : BufTy).Contents (Elt F) → (⟨S1x4x768, .f32⟩ : BufTy).Contents (Elt F) → (⟨S1x4x768, .f32⟩ : BufTy).Contents (Elt F)),
    unary main_arg6 main_v33 (broadcastInDim S1x1x768 ![2] bcast_S768_S1x1x768_2 : (⟨S768, .f32⟩ : BufTy).Contents (Elt F) → (⟨S1x1x768, .f32⟩ : BufTy).Contents (Elt F)),
    unary main_v33 main_v34 (broadcastInDim S1x4x768 ![0, 1, 2] bcast_S1x1x768_S1x4x768_0_1_2 : (⟨S1x1x768, .f32⟩ : BufTy).Contents (Elt F) → (⟨S1x4x768, .f32⟩ : BufTy).Contents (Elt F)),
    binary main_v32 main_v34 main_v35 (addf : (⟨S1x4x768, .f32⟩ : BufTy).Contents (Elt F) → (⟨S1x4x768, .f32⟩ : BufTy).Contents (Elt F) → (⟨S1x4x768, .f32⟩ : BufTy).Contents (Elt F)),
    nullary main_cst_6 (constant S_ .f32 0x00000000#32),
    binary main_v35 main_cst_6 main_v36 ((fun x v => Host.reduceAdd x v reducesTo_S1x4x768_S4x768_d0 h_S_) : (⟨S1x4x768, .f32⟩ : BufTy).Contents (Elt F) → (⟨S_, .f32⟩ : BufTy).Contents (Elt F) → (⟨S4x768, .f32⟩ : BufTy).Contents (Elt F)),
    binary main_v17 main_v36 main_v37 ((fun l r => Host.dotGeneral dot_S8x4096x768_S4x768_S8x4096x4_2_1_01_0_n_n none l r) : (⟨S8x4096x768, .f32⟩ : BufTy).Contents (Elt F) → (⟨S4x768, .f32⟩ : BufTy).Contents (Elt F) → (⟨S8x4096x4, .f32⟩ : BufTy).Contents (Elt F)),
    nullary main_cst_7 (constant S_ .f32 0xFF800000#32),
    binary main_v37 main_cst_7 main_v38 ((fun x v => Host.reduce FloatOps.maximumf x v reducesTo_S8x4096x4_S8x4096_d2 h_S_) : (⟨S8x4096x4, .f32⟩ : BufTy).Contents (Elt F) → (⟨S_, .f32⟩ : BufTy).Contents (Elt F) → (⟨S8x4096, .f32⟩ : BufTy).Contents (Elt F)),
    nullary main_cst_8 (constant S_ .f32 0xFF800000#32),
    unary main_cst_8 main_v39 (broadcastInDim S8x4096 ![] bcast_S_S8x4096 : (⟨S_, .f32⟩ : BufTy).Contents (Elt F) → (⟨S8x4096, .f32⟩ : BufTy).Contents (Elt F)),
    binary main_v39 main_v38 main_v40 (maximumf : (⟨S8x4096, .f32⟩ : BufTy).Contents (Elt F) → (⟨S8x4096, .f32⟩ : BufTy).Contents (Elt F) → (⟨S8x4096, .f32⟩ : BufTy).Contents (Elt F)),
    unary main_v40 main_v41 (broadcastInDim S8x4096x1 ![0, 1] bcast_S8x4096_S8x4096x1_0_1 : (⟨S8x4096, .f32⟩ : BufTy).Contents (Elt F) → (⟨S8x4096x1, .f32⟩ : BufTy).Contents (Elt F)),
    unary main_v41 main_v42 (broadcastInDim S8x4096x4 ![0, 1, 2] bcast_S8x4096x1_S8x4096x4_0_1_2 : (⟨S8x4096x1, .f32⟩ : BufTy).Contents (Elt F) → (⟨S8x4096x4, .f32⟩ : BufTy).Contents (Elt F)),
    binary main_v37 main_v42 main_v43 (subf : (⟨S8x4096x4, .f32⟩ : BufTy).Contents (Elt F) → (⟨S8x4096x4, .f32⟩ : BufTy).Contents (Elt F) → (⟨S8x4096x4, .f32⟩ : BufTy).Contents (Elt F)),
    unary main_v43 main_v44 (Host.exp : (⟨S8x4096x4, .f32⟩ : BufTy).Contents (Elt F) → (⟨S8x4096x4, .f32⟩ : BufTy).Contents (Elt F)),
    nullary main_cst_9 (constant S_ .f32 0x00000000#32),
    binary main_v44 main_cst_9 main_v45 ((fun x v => Host.reduceAdd x v reducesTo_S8x4096x4_S8x4096_d2 h_S_) : (⟨S8x4096x4, .f32⟩ : BufTy).Contents (Elt F) → (⟨S_, .f32⟩ : BufTy).Contents (Elt F) → (⟨S8x4096, .f32⟩ : BufTy).Contents (Elt F)),
    unary main_v45 main_v46 (broadcastInDim S8x4096x1 ![0, 1] bcast_S8x4096_S8x4096x1_0_1 : (⟨S8x4096, .f32⟩ : BufTy).Contents (Elt F) → (⟨S8x4096x1, .f32⟩ : BufTy).Contents (Elt F)),
    unary main_v46 main_v47 (broadcastInDim S8x4096x4 ![0, 1, 2] bcast_S8x4096x1_S8x4096x4_0_1_2 : (⟨S8x4096x1, .f32⟩ : BufTy).Contents (Elt F) → (⟨S8x4096x4, .f32⟩ : BufTy).Contents (Elt F)),
    binary main_v44 main_v47 main_v48 (Host.divf : (⟨S8x4096x4, .f32⟩ : BufTy).Contents (Elt F) → (⟨S8x4096x4, .f32⟩ : BufTy).Contents (Elt F) → (⟨S8x4096x4, .f32⟩ : BufTy).Contents (Elt F)),
    binary main_v48 main_arg0 main_v49 ((fun l r => Host.dotGeneral dot_S8x4096x4_S8x4096x768_S8x4x768_1_1_2_2_0_0 none l r) : (⟨S8x4096x4, .f32⟩ : BufTy).Contents (Elt F) → (⟨S8x4096x768, .f32⟩ : BufTy).Contents (Elt F) → (⟨S8x4x768, .f32⟩ : BufTy).Contents (Elt F)),
    unary main_arg2 main_v50 (broadcastInDim S8x4x768 ![0, 1, 2] bcast_S1x4x768_S8x4x768_0_1_2 : (⟨S1x4x768, .f32⟩ : BufTy).Contents (Elt F) → (⟨S8x4x768, .f32⟩ : BufTy).Contents (Elt F)),
    binary main_v50 main_v49 main_v51 (addf : (⟨S8x4x768, .f32⟩ : BufTy).Contents (Elt F) → (⟨S8x4x768, .f32⟩ : BufTy).Contents (Elt F) → (⟨S8x4x768, .f32⟩ : BufTy).Contents (Elt F)) ]

-- about a hundred and ten binds re-associated: the rewrite under the chain recurses once per statement
set_option maxRecDepth 4096 in
set_option maxHeartbeats 4000000 in
/-- The program is that straight line: the functions' definitions unfolded at their calls and the records at their
    fields, both sides are one chain of steps once sequencing is reassociated. -/
theorem main_eq (c : Dev nD) : main (F := F) c = seq ops := by
  simp only [main, main_part0, main_part1, fn_var.body, fn_var_0.body, fn_where.body, fn_where_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., unary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., unary_bufs_sub .., binary_bufs_sub ..,
    nullary_bufs_sub .., binary_bufs_sub .., nullary_bufs_sub .., unary_bufs_sub .., unary_bufs_sub .., ternary_bufs_sub ..,
    unary_bufs_sub .., binary_bufs_sub .., nullary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub .., nullary_bufs_sub .., binary_bufs_sub .., unary_bufs_sub .., nullary_bufs_sub ..,
    unary_bufs_sub .., binary_bufs_sub .., nullary_bufs_sub .., nullary_bufs_sub .., binary_bufs_sub .., unary_bufs_sub ..,
    nullary_bufs_sub .., unary_bufs_sub .., binary_bufs_sub .., unary_bufs_sub .., binary_bufs_sub .., binary_bufs_sub ..,
    unary_bufs_sub .., nullary_bufs_sub .., binary_bufs_sub .., nullary_bufs_sub .., binary_bufs_sub .., unary_bufs_sub ..,
    unary_bufs_sub .., binary_bufs_sub .., nullary_bufs_sub .., binary_bufs_sub .., nullary_bufs_sub .., unary_bufs_sub ..,
    unary_bufs_sub .., ternary_bufs_sub .., unary_bufs_sub .., binary_bufs_sub .., nullary_bufs_sub .., unary_bufs_sub ..,
    binary_bufs_sub .., unary_bufs_sub .., unary_bufs_sub .., binary_bufs_sub .., unary_bufs_sub .., unary_bufs_sub ..,
    binary_bufs_sub .., unary_bufs_sub .., unary_bufs_sub .., binary_bufs_sub .., nullary_bufs_sub .., binary_bufs_sub ..,
    binary_bufs_sub .., nullary_bufs_sub .., binary_bufs_sub .., nullary_bufs_sub .., unary_bufs_sub .., binary_bufs_sub ..,
    unary_bufs_sub .., unary_bufs_sub .., binary_bufs_sub .., unary_bufs_sub .., nullary_bufs_sub .., binary_bufs_sub ..,
    unary_bufs_sub .., unary_bufs_sub .., binary_bufs_sub .., binary_bufs_sub .., unary_bufs_sub .., binary_bufs_sub ..⟩

attribute [local irreducible] Host.reduce Host.reduceAdd in
set_option maxRecDepth 16384 in
set_option maxHeartbeats 4000000 in
/-- The fold at the result buffer is the composed function by computation: the fold unrolled, each operation's result
    decides whether the buffer read is the one it writes, and the typed references' casts are the identity at these
    literal references. The reductions are kept folded meanwhile: the equation never looks
    inside them. -/
theorem out_eq (V : Valuation τ sig (Elt F)) :
    after ops V (main_v51 : DevRef τ sig)
      = Term.refOut (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) := by
  simp only [Term.refOut, Term.probs, Term.expo, Term.scores, Term.lnX, Term.knorm, Term.varX, Term.varS, Term.devX,
    Term.devS, Term.meanX, Term.meanS, Term.denom]
  simp only [after_cons, after_nil]
  rfl

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

theorem arg3_eq (V : Valuation τ sig (Elt F)) :
    after ops V (main_arg3 : DevRef τ sig) = V (main_arg3 : DevRef τ sig) := by
  simp only [after_cons, after_nil]
  rfl

theorem arg4_eq (V : Valuation τ sig (Elt F)) :
    after ops V (main_arg4 : DevRef τ sig) = V (main_arg4 : DevRef τ sig) := by
  simp only [after_cons, after_nil]
  rfl

theorem arg5_eq (V : Valuation τ sig (Elt F)) :
    after ops V (main_arg5 : DevRef τ sig) = V (main_arg5 : DevRef τ sig) := by
  simp only [after_cons, after_nil]
  rfl

theorem arg6_eq (V : Valuation τ sig (Elt F)) :
    after ops V (main_arg6 : DevRef τ sig) = V (main_arg6 : DevRef τ sig) := by
  simp only [after_cons, after_nil]
  rfl

/-- The fold of the operations over the launch contents, every buffer of every device: the library's statement for a
    straight line of host operations. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- On every device, for any float values, from any memory with zero counters: every weakly fair execution of the
    program terminates with the result buffer at the composed function of the arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v51)
          = Term.refOut (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  exact (θ_run defs _ _).mono
    (fun _ h c => ⟨(h c main_v51).trans (out_eq _), (h c main_arg0).trans (arg0_eq _), (h c main_arg1).trans (arg1_eq _),
      (h c main_arg2).trans (arg2_eq _), (h c main_arg3).trans (arg3_eq _), (h c main_arg4).trans (arg4_eq _),
      (h c main_arg5).trans (arg5_eq _), (h c main_arg6).trans (arg6_eq _)⟩)
    (run_main m ρ)

end Cert.ReferenceIdeal.HandRun

end
-- ==== Proof.RowSpec.lean ====
import Idealize.ShloMosaic.PureOps.Ideal
import Idealize.ShloMosaic.PureOps.Ideal.Laws
import Idealize.ShloMosaic.Lib.ValueIdx

/-!
# The slot-routing update, row by row, on the extended reals

One row `x : Fin 768 → EReal` of the input is layer-normalised (mean `mu`, variance `var`, scale `w`, shift `b`),
scored against the four normalised slot keys `kn k`, the four scores go through a softmax, and the row is added into
slot `k` with its softmax weight. The result at `(k, d)` is the slot value plus the sum over the rows of
`weight k · x d`.

The two programs differ only in how a row's statistics are taken: one pass (`muK`, `varK`: the mean as the sum times
`c`, the variance as the mean of the squares minus the squared mean, clamped at `0`) against two passes (`muR`, `varR`:
quotients by `768`, the variance as the mean of the squared deviations); and in how the sum over the `4096` rows is
bracketed (four runs of `1024` against one run).
-/

noncomputable section

namespace Cert.Routing

open Idealize.ShloMosaic

/-- The layer norm's ε: the f32 word both programs carry. It is never evaluated. -/
abbrev eps : EReal := Ideal.ofBits .f32 0x3727C5AC#32
/-- The word both programs start a row maximum from (f32 `-∞`). It is never evaluated. -/
abbrev negInf : EReal := Ideal.ofBits .f32 0xFF800000#32
/-- The divisor `768.0` of the two-pass statistics. -/
abbrev n768 : EReal := Ideal.ofBits .f32 0x44400000#32

/-- A row normalised with the statistics `mu`, `var`, scaled by `w` and shifted by `b`. -/
def normed (w b x : Fin 768 → EReal) (mu var : EReal) : Fin 768 → EReal := fun d =>
  (x d - mu) * Ideal.rsqrt (var + eps) * w d + b d

/-- The scores of a normalised row against the four keys. -/
def score (kn : Fin 4 → Fin 768 → EReal) (y : Fin 768 → EReal) : Fin 4 → EReal := fun k => ∑ d, y d * kn k d

/-- The largest of four scores, from `negInf`. -/
def rowMax (s : Fin 4 → EReal) : EReal := (Finset.univ : Finset (Fin 4)).fold max negInf s

/-- The softmax of four scores. -/
def soft (s : Fin 4 → EReal) : Fin 4 → EReal := fun k =>
  Ideal.div (Ideal.exp (s k - rowMax s)) (∑ k', Ideal.exp (s k' - rowMax s))

/-- The weights with which a row is assigned to the four slots, given its statistics. -/
def asg (w b : Fin 768 → EReal) (kn : Fin 4 → Fin 768 → EReal) (x : Fin 768 → EReal) (mu var : EReal) : Fin 4 → EReal :=
  soft (score kn (normed w b x mu var))

/-- One-pass mean: the sum times `c`. -/
def muK (c : EReal) (x : Fin 768 → EReal) : EReal := (∑ d, x d) * c
/-- One-pass variance: the mean of the squares minus the squared mean, clamped at zero. -/
def varK (c : EReal) (x : Fin 768 → EReal) : EReal := max ((∑ d, x d * x d) * c - muK c x * muK c x) 0
/-- Two-pass mean: the sum over `768`. -/
def muR (x : Fin 768 → EReal) : EReal := Ideal.div (∑ d, x d) n768
/-- Two-pass variance: the sum of the squared deviations over `768`. -/
def varR (x : Fin 768 → EReal) : EReal := Ideal.div (∑ d, (x d - muR x) * (x d - muR x)) n768

/-- What a run of rows adds to slot `k` at column `d`, with one-pass statistics. -/
def upd {n : Nat} (c : EReal) (w b : Fin 768 → EReal) (kn : Fin 4 → Fin 768 → EReal) (rows : Fin n → Fin 768 → EReal)
    (k : Fin 4) (d : Fin 768) : EReal :=
  ∑ r : Fin n, asg w b kn (rows r) (muK c (rows r)) (varK c (rows r)) k * rows r d

/-- Row `r` of the `j`-th run of `1024` rows. -/
def ch (j : Fin 4) (r : Fin 1024) : Fin 4096 := ⟨1024 * j.val + r.val, by have := j.isLt; have := r.isLt; omega⟩

/-- The chunked form: the slot value plus the four runs' contributions, added in order. -/
def GK (c : EReal) (x : Fin 4096 → Fin 768 → EReal) (w b : Fin 768 → EReal) (kn : Fin 4 → Fin 768 → EReal) (sv : EReal)
    (k : Fin 4) (d : Fin 768) : EReal :=
  sv + (((upd c w b kn (fun r => x (ch 0 r)) k d + upd c w b kn (fun r => x (ch 1 r)) k d)
    + upd c w b kn (fun r => x (ch 2 r)) k d) + upd c w b kn (fun r => x (ch 3 r)) k d)

/-- The whole-sum form with two-pass statistics. -/
def G (x : Fin 4096 → Fin 768 → EReal) (w b : Fin 768 → EReal) (kn : Fin 4 → Fin 768 → EReal) (sv : EReal)
    (k : Fin 4) (d : Fin 768) : EReal :=
  sv + ∑ n : Fin 4096, asg w b kn (x n) (muR (x n)) (varR (x n)) k * x n d

/-! ## The two forms agree on real rows -/

/-- The coercion of reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The divisor word is the real `768`. -/
theorem n768_eq : n768 = ((768 : ℝ) : EReal) := by
  simp [n768, Ideal.ofBits, Ideal.ieee, -EReal.coe_mul]; norm_num

/-- Over the reals: the mean of the squares minus the squared mean is the mean of the squared deviations. -/
theorem real_var (r : Fin 768 → ℝ) :
    (∑ d, r d * r d) * (1 / 768) - ((∑ d, r d) * (1 / 768)) * ((∑ d, r d) * (1 / 768))
      = (∑ d, (r d - (∑ d, r d) * (1 / 768)) * (r d - (∑ d, r d) * (1 / 768))) * (1 / 768) := by
  set S := ∑ d, r d with hS
  have hd : ∀ d, (r d - S * (1 / 768)) * (r d - S * (1 / 768))
      = r d * r d - 2 * (S * (1 / 768)) * r d + (S * (1 / 768)) * (S * (1 / 768)) := fun d => by ring
  have h : ∑ d, (r d - S * (1 / 768)) * (r d - S * (1 / 768))
      = (∑ d, r d * r d) - 2 * (S * (1 / 768)) * S + 768 * ((S * (1 / 768)) * (S * (1 / 768))) := by
    simp only [hd, Finset.sum_add_distrib, Finset.sum_sub_distrib, ← Finset.mul_sum, Finset.sum_const, Finset.card_univ,
      Fintype.card_fin, nsmul_eq_mul, ← hS]
    push_cast
    ring
  rw [h]
  ring

/-- The mean of squared deviations is not negative. -/
theorem real_var_nonneg (r : Fin 768 → ℝ) (M : ℝ) : 0 ≤ (∑ d, (r d - M) * (r d - M)) * (1 / 768) :=
  mul_nonneg (Finset.sum_nonneg fun d _ => mul_self_nonneg _) (by norm_num)

/-- The two means are one number, on every row. -/
theorem muK_eq_muR (x : Fin 768 → EReal) : muK ((1 / 768 : ℝ) : EReal) x = muR x := by
  unfold muK muR
  rw [n768_eq, Ideal.div_coe (by norm_num : (768 : ℝ) ≠ 0)]

/-- The two variances are one number, on a row of reals. -/
theorem varK_eq_varR (x : Fin 768 → EReal) (hx : ∀ d, ∃ r : ℝ, x d = (r : EReal)) :
    varK ((1 / 768 : ℝ) : EReal) x = varR x := by
  choose r hr using hx
  have hxr : x = fun d => (r d : EReal) := funext hr
  subst hxr
  unfold varK varR
  rw [← muK_eq_muR]
  unfold muK
  rw [n768_eq, Ideal.div_coe (by norm_num : (768 : ℝ) ≠ 0)]
  simp only [← EReal.coe_mul, ← coe_sum, ← EReal.coe_sub]
  rw [real_var, max_eq_left (EReal.coe_nonneg.mpr (real_var_nonneg r _))]

/-- A sum over `4096` rows is the sum of its four runs of `1024`, in order. -/
theorem sum_runs {M : Type*} [AddCommMonoid M] (f : Fin 4096 → M) :
    ∑ n, f n = ((∑ r, f (ch 0 r) + ∑ r, f (ch 1 r)) + ∑ r, f (ch 2 r)) + ∑ r, f (ch 3 r) := by
  have h : ∀ (i : Fin 4) (j : Fin 1024), (finProdFinEquiv (i, j) : Fin (4 * 1024)) = ch i j := fun i j =>
    Fin.ext (by simp only [finProdFinEquiv_apply_val, ch]; omega)
  rw [← Equiv.sum_comp (finProdFinEquiv : Fin 4 × Fin 1024 ≃ Fin (4 * 1024)) f, Fintype.sum_prod_type, Fin.sum_univ_four]
  simp only [h]

/-- The two forms agree on rows of real numbers, when `c` is the real `1/768`. -/
theorem GK_eq_G (x : Fin 4096 → Fin 768 → EReal) (hx : ∀ n d, ∃ r : ℝ, x n d = (r : EReal))
    (w b : Fin 768 → EReal) (kn : Fin 4 → Fin 768 → EReal) (sv : EReal) (k : Fin 4) (d : Fin 768) :
    GK (((1 / 768 : ℝ) : ℝ) : EReal) x w b kn sv k d = G x w b kn sv k d := by
  unfold GK G upd
  rw [sum_runs (fun n => asg w b kn (x n) (muR (x n)) (varR (x n)) k * x n d)]
  simp only [muK_eq_muR, varK_eq_varR _ (hx _)]

end Cert.Routing

end
-- ==== Proof.KHost.lean ====
import proofs.«422546_j29686813950006_3_alg».proof.Proof.Gen.KernelIdeal.Frame
import proofs.«422546_j29686813950006_3_alg».proof.Proof.Gen.ReferenceIdeal
import proofs.«422546_j29686813950006_3_alg».proof.Proof.RefTerm
import Idealize.ShloMosaic.Lib.StableHlo.Run
import Idealize.ShloMosaic.Lib.ValueIdx
import Idealize.ShloMosaic.Lib.ValueLayout
import Idealize.ShloMosaic.Lib.Pipeline.Value

/-!
# What the kernel's region finds in the arrays it stages

Before the region the host layer-normalises the four slot keys, drops their leading unit axis and transposes them
(`main_v19`, the keys as columns), and gives the scale and the shift of the input's layer norm a leading unit axis
(`main_v20`, `main_v21`). The key chain is the same straight line of operations the reference applies to the keys:
`Term.knorm`.
-/

set_option maxRecDepth 16384

noncomputable section

namespace Cert.KernelIdeal.Host

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F] [Named F]

/-- The divisor of the variance: `768 - 0`, as the program computes it. -/
def denom : FVec F S_ .f32 := subf (constant S_ .f32 0x44400000#32) (sitofp .f32 (constantI S_ 32 0#32))

def meanS (x : FVec F S1x4x768 .f32) : FVec F S1x4x1 .f32 :=
  Host.divf (broadcastInDim S1x4x1 ![0, 1] bcast_S1x4_S1x4x1_0_1
      (Host.reduceAdd x (constant S_ .f32 0x00000000#32) reducesTo_S1x4x768_S1x4_d2 h_S_))
    (broadcastInDim S1x4x1 ![] bcast_S_S1x4x1 (constant S_ .f32 0x44400000#32))

def devS (x : FVec F S1x4x768 .f32) : FVec F S1x4x768 .f32 :=
  subf x (broadcastInDim S1x4x768 ![0, 1, 2] bcast_S1x4x1_S1x4x768_0_1_2 (meanS x))

def varS (x : FVec F S1x4x768 .f32) : FVec F S1x4x1 .f32 :=
  select (broadcastInDim S1x4x1 ![] bcast_S_S1x4x1 (cmpf .ogt (denom (F := F)) (constant S_ .f32 0x00000000#32)))
    (Host.divf (broadcastInDim S1x4x1 ![0, 1] bcast_S1x4_S1x4x1_0_1
        (Host.reduceAdd (mulf (devS x) (devS x)) (constant S_ .f32 0x00000000#32) reducesTo_S1x4x768_S1x4_d2 h_S_))
      (broadcastInDim S1x4x1 ![] bcast_S_S1x4x1 (denom (F := F))))
    (broadcastInDim S1x4x1 ![] bcast_S_S1x4x1 (id (constant S_ .f32 0x7FC00000#32)))

/-- The layer norm of the four slot keys, as the kernel's host prefix computes it. -/
def keysK (sk : FVec F S1x4x768 .f32) (ws bs : FVec F S768 .f32) : FVec F S1x4x768 .f32 :=
  addf (mulf (mulf (devS sk)
        (broadcastInDim S1x4x768 ![0, 1, 2] bcast_S1x4x1_S1x4x768_0_1_2
          (Host.rsqrt (addf (varS sk) (broadcastInDim S1x4x1 ![] bcast_S_S1x4x1 (constant S_ .f32 0x3727C5AC#32))))))
      (broadcastInDim S1x4x768 ![0, 1, 2] bcast_S1x1x768_S1x4x768_0_1_2 (broadcastInDim S1x1x768 ![2] bcast_S768_S1x1x768_2 ws)))
    (broadcastInDim S1x4x768 ![0, 1, 2] bcast_S1x1x768_S1x4x768_0_1_2 (broadcastInDim S1x1x768 ![2] bcast_S768_S1x1x768_2 bs))

/-- It is the reference's key chain: the same operations on the same shapes. -/
theorem keysK_eq_knorm (sk : FVec F S1x4x768 .f32) (ws bs : FVec F S768 .f32) :
    keysK sk ws bs = Cert.ReferenceIdeal.Term.knorm sk ws bs := rfl

variable (m : (ℓ : Loc nD τ sig) → Buf (Elt F) ℓ)

/-- The scale of the input's layer norm with a leading unit axis. -/
theorem V_v20 (c : Dev nD) :
    (V m c main_v20 : S1x768.Idx → Elt F .f32)
      = shapeCast S1x768 (m ((c : Thread nD τ).loc main_arg3)) shapeCasts_S768_S1x768 := by
  dsimp only [Gen.V]
  simp only [Gen.hostOps0, Gen.hostOps0_1, Gen.hostOps0_2, List.flatten_cons, List.flatten_nil, List.append_nil,
    List.cons_append, List.nil_append]
  after_results_simp
  rfl

/-- The shift of the input's layer norm with a leading unit axis. -/
theorem V_v21 (c : Dev nD) :
    (V m c main_v21 : S1x768.Idx → Elt F .f32)
      = shapeCast S1x768 (m ((c : Thread nD τ).loc main_arg4)) shapeCasts_S768_S1x768 := by
  dsimp only [Gen.V]
  simp only [Gen.hostOps0, Gen.hostOps0_1, Gen.hostOps0_2, List.flatten_cons, List.flatten_nil, List.append_nil,
    List.cons_append, List.nil_append]
  after_results_simp
  rfl

/-- The normalised keys, leading axis dropped, transposed to columns. -/
theorem V_v19 (c : Dev nD) :
    (V m c main_v19 : S768x4.Idx → Elt F .f32)
      = transpose S768x4 [1, 0]
          (shapeCast S4x768 (keysK (m ((c : Thread nD τ).loc main_arg1)) (m ((c : Thread nD τ).loc main_arg5))
            (m ((c : Thread nD τ).loc main_arg6))) shapeCasts_S1x4x768_S4x768) transposes_S4x768_S768x4_1_0 := by
  dsimp only [Gen.V]
  simp only [Gen.hostOps0, Gen.hostOps0_1, Gen.hostOps0_2, List.flatten_cons, List.flatten_nil, List.append_nil,
    List.cons_append, List.nil_append]
  after_results_simp
  rfl

end Cert.KernelIdeal.Host

end
-- ==== Proof.KTerm.lean ====
import proofs.«422546_j29686813950006_3_alg».proof.KernelIdeal

/-!
# The kernel body's arithmetic as one function of the loaded blocks

At a grid point the body loads the scale and shift rows, the transposed keys, the slot values and four runs of
`1024` rows of the input block; for each run it layer-normalises the rows with one-pass statistics, scores them
against the keys, takes the softmax over the four slots and adds the softmax-weighted sum of the run's rows into an
accumulator that starts at zero; it stores the slot values plus the accumulator.
-/

noncomputable section

namespace Cert.KernelIdeal.Term

open Cert.KernelIdeal Idealize.ShloMosaic Cert.KernelIdeal.Facts₀ Cert.KernelIdeal.Facts

variable {F : FTy → Type} [FloatOps F] [Named F] [Cert.KernelIdeal.Facts]

/-- Row sums of a run, as a column. -/
def colSum (v : FVec F S1024x768 .f32) : FVec F S1024x1 .f32 :=
  shapeCast S1024x1 (multiReduction .add [1] S1024 v 0x00000000#32 reduces_S1024x768_S1024 (.inl rfl) rfl) shapeCasts_S1024_S1024x1

/-- The named reciprocal of the row length, as a column. -/
def invD : FVec F S1024x1 .f32 := broadcast S1024x1 (Named.named κ "inv_768" 0x3AAAAAAB#32 : F .f32)

/-- One-pass row means. -/
def meanK (xc : FVec F S1024x768 .f32) : FVec F S1024x1 .f32 := mulf (colSum xc) invD

/-- One-pass row variances, clamped at zero. -/
def varK (xc : FVec F S1024x768 .f32) : FVec F S1024x1 .f32 :=
  maximumf (subf (mulf (colSum (mulf xc xc)) invD) (mulf (meanK xc) (meanK xc)))
    (broadcast S1024x1 (Scalar.ofBits .f32 0x00000000#32 : F .f32))

/-- The run's rows layer-normalised with scale `w` and shift `b`. -/
def normK (w b : FVec F S1x768 .f32) (xc : FVec F S1024x768 .f32) : FVec F S1024x768 .f32 :=
  addf (mulf (mulf (subf xc (broadcastTo S1024x768 (meanK xc) broadcasts_S1024x1_S1024x768))
        (broadcastTo S1024x768 (rsqrt (addf (varK xc) (broadcast S1024x1 (Scalar.ofBits .f32 0x3727C5AC#32 : F .f32))))
          broadcasts_S1024x1_S1024x768))
      (broadcastTo S1024x768 w broadcasts_S1x768_S1024x768))
    (broadcastTo S1024x768 b broadcasts_S1x768_S1024x768)

/-- Scores of the run's rows against the four keys (`kn` holds the keys as columns). -/
def scoresK (w b : FVec F S1x768 .f32) (kn : FVec F S768x4 .f32) (xc : FVec F S1024x768 .f32) : FVec F S1024x4 .f32 :=
  matmul dot_S1024x768_S768x4_S1024x4_1_0_0_1_n_n none (normK w b xc) kn (constant S1024x4 .f32 0x00000000#32)

/-- A per-row quantity spread over the four slots. -/
def spread4 (v : FVec F S1024 .f32) : FVec F S1024x4 .f32 :=
  broadcastTo S1024x4 (shapeCast S1024x1 v shapeCasts_S1024_S1024x1) broadcasts_S1024x1_S1024x4

/-- Scores minus their row maximum, exponentiated. -/
def expK (s : FVec F S1024x4 .f32) : FVec F S1024x4 .f32 :=
  exp (subf s (spread4 (multiReduction .maximumf [1] S1024 s 0xFF800000#32 reduces_S1024x4_S1024 (.inl rfl) rfl)))

/-- The softmax over the four slots. -/
def probsK (s : FVec F S1024x4 .f32) : FVec F S1024x4 .f32 :=
  divf (expK s) (spread4 (multiReduction .add [1] S1024 (expK s) 0x00000000#32 reduces_S1024x4_S1024 (.inl rfl) rfl))

/-- What one run of rows adds to the four slots: the softmax weights contracted with the rows over the row axis. -/
def chunkUpd (w b : FVec F S1x768 .f32) (kn : FVec F S768x4 .f32) (xc : FVec F S1024x768 .f32) : FVec F S4x768 .f32 :=
  matmul dot_S1024x4_S1024x768_S4x768_0_0_1_1_n_n none (probsK (scoresK w b kn xc)) xc (constant S4x768 .f32 0x00000000#32)

/-- The block the body stores: the slot values plus the four runs' updates added, in order, to a zero accumulator. -/
def blockOut (w b : FVec F S1x768 .f32) (kn : FVec F S768x4 .f32) (c0 c1 c2 c3 : FVec F S1024x768 .f32)
    (sv : Vec F S1x4x768 .f32) : FVec F S1x4x768 .f32 :=
  shapeCast S1x4x768
    (addf (shapeCast S4x768 sv shapeCasts_S1x4x768_S4x768)
      (addf (addf (addf (addf (broadcast S4x768 (Scalar.ofBits .f32 0x00000000#32 : F .f32)) (chunkUpd w b kn c0))
        (chunkUpd w b kn c1)) (chunkUpd w b kn c2)) (chunkUpd w b kn c3)))
    shapeCasts_S4x768_S1x4x768

end Cert.KernelIdeal.Term

end
-- ==== Proof.KChunk.lean ====
import proofs.«422546_j29686813950006_3_alg».proof.Proof.Gen.KernelIdeal
import proofs.«422546_j29686813950006_3_alg».proof.Proof.KTerm
import proofs.«422546_j29686813950006_3_alg».proof.Proof.RowSpec
import Idealize.ShloMosaic.PureOps.Ideal.Laws
import Idealize.ShloMosaic.Lib.ValueIdx
import Idealize.ShloMosaic.Lib.ValueLayout
import Idealize.ShloMosaic.Lib.Pipeline.Value

/-!
# One run of rows, read at an index

At the extended reals the update of one run of `1024` rows, at slot `k` and column `d`, is the sum over the run's
rows of the row's softmax weight for slot `k` (one-pass statistics) times the row's entry at `d`.

Each definition of the body's arithmetic is read at one symbolic index: a row sum is the sum over the row's columns,
the one-pass mean and variance are those of the row, the normalised block at `(r, d)` is the normalised row at `d`,
the score block at `(r, k)` is the row's score against key `k`, the softmax block at `(r, k)` is the softmax of the
row's four scores at `k`, and the second contraction sums over the rows.
-/

noncomputable section

namespace Cert.KernelIdeal.Term

open Cert.KernelIdeal Idealize.ShloMosaic Idealize.ShloMosaic.ValueIdx

/-! ## Keepdims columns read at an index -/

/-- An `[a]` vector cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The row sums of a block, kept as a column: at row `r` the sum over the row's columns. -/
theorem colSum_apply (v : FVec Ideal S1024x768 .f32) (r : Fin 1024) :
    colSum (F := Ideal) v (ix2 r (0 : Fin 1)) = ∑ d : Fin 768, v (ix2 r d) := by
  unfold colSum
  refine (shapeCast_a_a1_apply _ _ r 0).trans ?_
  refine (Ideal.multiReduction_add_single v 0x00000000#32 _ _ _ (ix1 r)).trans ?_
  show ∑ d : Fin 768, _ = _
  refine Finset.sum_congr rfl fun d _ => congrArg v ?_
  funext a
  match a with
  | ⟨0, _⟩ => rfl
  | ⟨1, _⟩ => rfl

/-- The named reciprocal of the row length, kept as a word: it is never evaluated. -/
abbrev cInv : EReal := Named.named (F := Ideal) κ "inv_768" (φ := .f32) 0x3AAAAAAB#32

/-- The f32 zero word at the extended reals, as the clamp's splat carries it. -/
theorem scalar_zero_f32 : (Scalar.ofBits .f32 0x00000000#32 : Ideal .f32) = (0 : EReal) := Ideal.ofBits_zero_f32

/-- The reciprocal square root and the exponential of a block act entry by entry. -/
theorem rsqrt_apply {s : Shape} {φ : FTy} (a : FVec Ideal s φ) (i : s.Idx) : rsqrt a i = Ideal.rsqrt (a i) := rfl
theorem exp_apply {s : Shape} {φ : FTy} (a : FVec Ideal s φ) (i : s.Idx) : exp a i = Ideal.exp (a i) := rfl

/-- The column of reciprocals reads the named constant in every row. -/
theorem invD_apply (r : Fin 1024) : invD (F := Ideal) (ix2 r (0 : Fin 1)) = cInv := rfl

/-- The one-pass mean of row `r`: the row's sum times the named reciprocal. -/
theorem meanK_apply (xc : FVec Ideal S1024x768 .f32) (r : Fin 1024) :
    meanK (F := Ideal) xc (ix2 r (0 : Fin 1)) = Cert.Routing.muK cInv (fun d => xc (ix2 r d)) := by
  unfold meanK Cert.Routing.muK
  rw [mulf_apply, colSum_apply, invD_apply]

/-- The one-pass variance of row `r`: the mean of the squares minus the squared mean, clamped at zero. -/
theorem varK_apply (xc : FVec Ideal S1024x768 .f32) (r : Fin 1024) :
    varK (F := Ideal) xc (ix2 r (0 : Fin 1)) = Cert.Routing.varK cInv (fun d => xc (ix2 r d)) := by
  unfold varK Cert.Routing.varK
  rw [maximumf_apply, subf_apply, mulf_apply, mulf_apply, colSum_apply, meanK_apply, invD_apply, broadcast_apply,
    scalar_zero_f32]
  simp only [mulf_apply]

/-- The normalised block at `(r, d)`: row `r` normalised with its one-pass statistics, at column `d`. -/
theorem normK_apply (w b : FVec Ideal S1x768 .f32) (xc : FVec Ideal S1024x768 .f32) (r : Fin 1024) (d : Fin 768) :
    normK (F := Ideal) w b xc (ix2 r d)
      = Cert.Routing.normed (fun d' => w (ix2 (0 : Fin 1) d')) (fun d' => b (ix2 (0 : Fin 1) d')) (fun d' => xc (ix2 r d'))
          (Cert.Routing.muK cInv (fun d' => xc (ix2 r d'))) (Cert.Routing.varK cInv (fun d' => xc (ix2 r d'))) d := by
  unfold normK Cert.Routing.normed
  rw [addf_apply, mulf_apply, mulf_apply, subf_apply, broadcastTo_a1_ab_apply, broadcastTo_a1_ab_apply,
    broadcastTo_1b_ab_apply, broadcastTo_1b_ab_apply, rsqrt_apply, addf_apply, broadcast_apply, meanK_apply, varK_apply]
  rfl

/-! ## The score matmul: rows times key columns, contracted over the 768 columns -/

/-- The operand indices of the score contraction at output `(r, k)` and contraction position `q`: the left operand is
    read at `(r, q)`, the right at `(q, k)`. One lemma per operand axis. -/
theorem lhs_scores_0 (i : S1024x4.Idx) (q : dot_S1024x768_S768x4_S1024x4_1_0_0_1_n_n.contr.Idx) :
    (dot_S1024x768_S768x4_S1024x4_1_0_0_1_n_n.lhsIdx i q 0).val = (i 0).val := by
  unfold DotDims.lhsIdx
  rw [dif_neg (show ¬(0 : Fin S1024x768.rank) ∈ dot_S1024x768_S768x4_S1024x4_1_0_0_1_n_n.lhsBatch by decide),
    dif_pos (show (0 : Fin S1024x768.rank) ∈ dot_S1024x768_S768x4_S1024x4_1_0_0_1_n_n.lhsNonContracting by decide)]
  rfl

theorem lhs_scores_1 (i : S1024x4.Idx) (q : dot_S1024x768_S768x4_S1024x4_1_0_0_1_n_n.contr.Idx) :
    (dot_S1024x768_S768x4_S1024x4_1_0_0_1_n_n.lhsIdx i q 1).val = (q ⟨0, by decide⟩).val :=
  dot_S1024x768_S768x4_S1024x4_1_0_0_1_n_n.lhsIdx_val_of_single rfl i q

theorem rhs_scores_0 (i : S1024x4.Idx) (q : dot_S1024x768_S768x4_S1024x4_1_0_0_1_n_n.contr.Idx) :
    (dot_S1024x768_S768x4_S1024x4_1_0_0_1_n_n.rhsIdx i q 0).val = (q ⟨0, by decide⟩).val :=
  dot_S1024x768_S768x4_S1024x4_1_0_0_1_n_n.rhsIdx_val_of_single rfl i q

theorem rhs_scores_1 (i : S1024x4.Idx) (q : dot_S1024x768_S768x4_S1024x4_1_0_0_1_n_n.contr.Idx) :
    (dot_S1024x768_S768x4_S1024x4_1_0_0_1_n_n.rhsIdx i q 1).val = (i 1).val := by
  unfold DotDims.rhsIdx
  rw [dif_neg (show ¬(1 : Fin S768x4.rank) ∈ dot_S1024x768_S768x4_S1024x4_1_0_0_1_n_n.rhsBatch by decide),
    dif_pos (show (1 : Fin S768x4.rank) ∈ dot_S1024x768_S768x4_S1024x4_1_0_0_1_n_n.rhsNonContracting by decide)]
  rfl

/-- A [1024, 768] block times a [768, 4] block, into zero, at (r, k): the sum over the columns. -/
theorem matmul_scores_apply (lhs : FVec Ideal S1024x768 .f32) (rhs : FVec Ideal S768x4 .f32) (r : Fin 1024) (k : Fin 4) :
    matmul dot_S1024x768_S768x4_S1024x4_1_0_0_1_n_n none lhs rhs (constant (F := Ideal) S1024x4 .f32 0x00000000#32) (ix2 r k)
      = ∑ j : Fin 768, lhs (ix2 r j) * rhs (ix2 j k) := by
  simp only [matmul]
  rw [Ideal.matmul_constant_zero_apply,
    ← Equiv.sum_comp (contrEquiv1 dot_S1024x768_S768x4_S1024x4_1_0_0_1_n_n 768 rfl rfl).symm]
  refine Finset.sum_congr rfl fun j _ => ?_
  have hk := contrEquiv1_symm_val dot_S1024x768_S768x4_S1024x4_1_0_0_1_n_n 768 rfl rfl j
  have el : dot_S1024x768_S768x4_S1024x4_1_0_0_1_n_n.lhsIdx (ix2 r k)
      ((contrEquiv1 dot_S1024x768_S768x4_S1024x4_1_0_0_1_n_n 768 rfl rfl).symm j) = ix2 r j :=
    funext fun a => Fin.ext (by
      match a with
      | ⟨0, _⟩ => exact lhs_scores_0 _ _
      | ⟨1, _⟩ => exact (lhs_scores_1 _ _).trans hk)
  have er : dot_S1024x768_S768x4_S1024x4_1_0_0_1_n_n.rhsIdx (ix2 r k)
      ((contrEquiv1 dot_S1024x768_S768x4_S1024x4_1_0_0_1_n_n 768 rfl rfl).symm j) = ix2 j k :=
    funext fun a => Fin.ext (by
      match a with
      | ⟨0, _⟩ => exact (rhs_scores_0 _ _).trans hk
      | ⟨1, _⟩ => exact rhs_scores_1 _ _)
  rw [el, er]

/-- The score block at `(r, k)`: the normalised row `r` against key `k`. -/
theorem scoresK_apply (w b : FVec Ideal S1x768 .f32) (kn : FVec Ideal S768x4 .f32) (xc : FVec Ideal S1024x768 .f32)
    (r : Fin 1024) (k : Fin 4) :
    scoresK (F := Ideal) w b kn xc (ix2 r k)
      = Cert.Routing.score (fun k' d' => kn (ix2 d' k'))
          (Cert.Routing.normed (fun d' => w (ix2 (0 : Fin 1) d')) (fun d' => b (ix2 (0 : Fin 1) d')) (fun d' => xc (ix2 r d'))
            (Cert.Routing.muK cInv (fun d' => xc (ix2 r d'))) (Cert.Routing.varK cInv (fun d' => xc (ix2 r d')))) k := by
  unfold scoresK Cert.Routing.score
  refine (matmul_scores_apply _ _ r k).trans ?_
  exact Finset.sum_congr rfl fun j _ => by rw [normK_apply]

/-! ## The softmax over the four slots -/

/-- A per-row quantity spread over the four slots reads the row's entry. -/
theorem spread4_apply (v : FVec Ideal S1024 .f32) (r : Fin 1024) (k : Fin 4) :
    spread4 (F := Ideal) v (ix2 r k) = v (ix1 r) := by
  unfold spread4
  exact (broadcastTo_a1_ab_apply _ _ r k).trans (shapeCast_a_a1_apply _ _ r 0)

/-- The maximum over the four slots of row r, from the word for minus infinity. -/
theorem rowMax4_apply (s : FVec Ideal S1024x4 .f32) (h : S1024x4.Reduces [1] S1024) (hφ : FKind.Formats .f32)
    (hacc : (0xFF800000#32 : BitVec 32) = FKind.maximumf.neutral .f32 hφ) (r : Fin 1024) :
    multiReduction .maximumf [1] S1024 s 0xFF800000#32 h hφ hacc (ix1 r)
      = Cert.Routing.rowMax (fun k' => s (ix2 r k')) := by
  unfold Cert.Routing.rowMax
  refine (Ideal.multiReduction_maximumf_single s 0xFF800000#32 h hφ hacc (ix1 r)).trans ?_
  have e : (s ∘ h.lift (ix1 r)) = fun k' : Fin 4 => s (ix2 r k') :=
    funext fun k' => congrArg s (funext fun a => match a with | ⟨0, _⟩ => rfl | ⟨1, _⟩ => rfl)
  rw [e]
  rfl

/-- The sum over the four slots of row r. -/
theorem rowSum4_apply (v : FVec Ideal S1024x4 .f32) (h : S1024x4.Reduces [1] S1024) (hφ : FKind.Formats .f32)
    (hacc : (0x00000000#32 : BitVec 32) = FKind.add.neutral .f32 hφ) (r : Fin 1024) :
    multiReduction .add [1] S1024 v 0x00000000#32 h hφ hacc (ix1 r) = ∑ k' : Fin 4, v (ix2 r k') := by
  refine (Ideal.multiReduction_add_single v 0x00000000#32 h hφ hacc (ix1 r)).trans ?_
  show ∑ k' : Fin 4, _ = _
  refine Finset.sum_congr rfl fun k' _ => congrArg v ?_
  funext a
  match a with
  | ⟨0, _⟩ => rfl
  | ⟨1, _⟩ => rfl

/-- The exponentials at `(r, k)`: the score minus the row's largest score, exponentiated. -/
theorem expK_apply (s : FVec Ideal S1024x4 .f32) (r : Fin 1024) (k : Fin 4) :
    expK (F := Ideal) s (ix2 r k) = Ideal.exp (s (ix2 r k) - Cert.Routing.rowMax (fun k' => s (ix2 r k'))) := by
  unfold expK
  rw [exp_apply, subf_apply, spread4_apply]
  exact congrArg (fun t => Ideal.exp (s (ix2 r k) - t)) (rowMax4_apply s _ _ _ r)

/-- The softmax block at `(r, k)`: the softmax of row `r`'s four scores, at slot `k`. -/
theorem probsK_apply (s : FVec Ideal S1024x4 .f32) (r : Fin 1024) (k : Fin 4) :
    probsK (F := Ideal) s (ix2 r k) = Cert.Routing.soft (fun k' => s (ix2 r k')) k := by
  unfold probsK Cert.Routing.soft
  rw [divf_apply, spread4_apply, expK_apply]
  refine congrArg (Ideal.div _) ?_
  refine (rowSum4_apply (expK (F := Ideal) s) _ _ _ r).trans ?_
  exact Finset.sum_congr rfl fun k' _ => expK_apply s r k'

/-! ## The update matmul: softmax weights against the rows, contracted over the 1024 rows -/

/-- The operand indices of the update contraction at output `(k, d)` and contraction position `q`: the left operand is
    read at `(q, k)`, the right at `(q, d)`. One lemma per operand axis. -/
theorem lhs_upd_0 (i : S4x768.Idx) (q : dot_S1024x4_S1024x768_S4x768_0_0_1_1_n_n.contr.Idx) :
    (dot_S1024x4_S1024x768_S4x768_0_0_1_1_n_n.lhsIdx i q 0).val = (q ⟨0, by decide⟩).val :=
  dot_S1024x4_S1024x768_S4x768_0_0_1_1_n_n.lhsIdx_val_of_single rfl i q

theorem lhs_upd_1 (i : S4x768.Idx) (q : dot_S1024x4_S1024x768_S4x768_0_0_1_1_n_n.contr.Idx) :
    (dot_S1024x4_S1024x768_S4x768_0_0_1_1_n_n.lhsIdx i q 1).val = (i 0).val := by
  unfold DotDims.lhsIdx
  rw [dif_neg (show ¬(1 : Fin S1024x4.rank) ∈ dot_S1024x4_S1024x768_S4x768_0_0_1_1_n_n.lhsBatch by decide),
    dif_pos (show (1 : Fin S1024x4.rank) ∈ dot_S1024x4_S1024x768_S4x768_0_0_1_1_n_n.lhsNonContracting by decide)]
  rfl

theorem rhs_upd_0 (i : S4x768.Idx) (q : dot_S1024x4_S1024x768_S4x768_0_0_1_1_n_n.contr.Idx) :
    (dot_S1024x4_S1024x768_S4x768_0_0_1_1_n_n.rhsIdx i q 0).val = (q ⟨0, by decide⟩).val :=
  dot_S1024x4_S1024x768_S4x768_0_0_1_1_n_n.rhsIdx_val_of_single rfl i q

theorem rhs_upd_1 (i : S4x768.Idx) (q : dot_S1024x4_S1024x768_S4x768_0_0_1_1_n_n.contr.Idx) :
    (dot_S1024x4_S1024x768_S4x768_0_0_1_1_n_n.rhsIdx i q 1).val = (i 1).val := by
  unfold DotDims.rhsIdx
  rw [dif_neg (show ¬(1 : Fin S1024x768.rank) ∈ dot_S1024x4_S1024x768_S4x768_0_0_1_1_n_n.rhsBatch by decide),
    dif_pos (show (1 : Fin S1024x768.rank) ∈ dot_S1024x4_S1024x768_S4x768_0_0_1_1_n_n.rhsNonContracting by decide)]
  rfl

/-- A [1024, 4] block against a [1024, 768] block over the rows, into zero, at (k, d): the sum over the rows. -/
theorem matmul_upd_apply (lhs : FVec Ideal S1024x4 .f32) (rhs : FVec Ideal S1024x768 .f32) (k : Fin 4) (d : Fin 768) :
    matmul dot_S1024x4_S1024x768_S4x768_0_0_1_1_n_n none lhs rhs (constant (F := Ideal) S4x768 .f32 0x00000000#32) (ix2 k d)
      = ∑ r : Fin 1024, lhs (ix2 r k) * rhs (ix2 r d) := by
  simp only [matmul]
  rw [Ideal.matmul_constant_zero_apply,
    ← Equiv.sum_comp (contrEquiv1 dot_S1024x4_S1024x768_S4x768_0_0_1_1_n_n 1024 rfl rfl).symm]
  refine Finset.sum_congr rfl fun r _ => ?_
  have hk := contrEquiv1_symm_val dot_S1024x4_S1024x768_S4x768_0_0_1_1_n_n 1024 rfl rfl r
  have el : dot_S1024x4_S1024x768_S4x768_0_0_1_1_n_n.lhsIdx (ix2 k d)
      ((contrEquiv1 dot_S1024x4_S1024x768_S4x768_0_0_1_1_n_n 1024 rfl rfl).symm r) = ix2 r k :=
    funext fun a => Fin.ext (by
      match a with
      | ⟨0, _⟩ => exact (lhs_upd_0 _ _).trans hk
      | ⟨1, _⟩ => exact lhs_upd_1 _ _)
  have er : dot_S1024x4_S1024x768_S4x768_0_0_1_1_n_n.rhsIdx (ix2 k d)
      ((contrEquiv1 dot_S1024x4_S1024x768_S4x768_0_0_1_1_n_n 1024 rfl rfl).symm r) = ix2 r d :=
    funext fun a => Fin.ext (by
      match a with
      | ⟨0, _⟩ => exact (rhs_upd_0 _ _).trans hk
      | ⟨1, _⟩ => exact rhs_upd_1 _ _)
  rw [el, er]

/-- The update of one run of rows at slot `k` and column `d`: the sum over the run's rows of the row's softmax weight
    for slot `k` times the row's entry at `d`. -/
theorem chunkUpd_apply (w b : FVec Ideal S1x768 .f32) (kn : FVec Ideal S768x4 .f32) (xc : FVec Ideal S1024x768 .f32)
    (k : Fin 4) (d : Fin 768) :
    chunkUpd (F := Ideal) w b kn xc (ix2 k d)
      = Cert.Routing.upd (Named.named (F := Ideal) κ "inv_768" (φ := .f32) 0x3AAAAAAB#32)
          (fun d' => w (ix2 (0 : Fin 1) d')) (fun d' => b (ix2 (0 : Fin 1) d')) (fun k' d' => kn (ix2 d' k'))
          (fun (r : Fin 1024) d' => xc (ix2 r d')) k d := by
  unfold chunkUpd Cert.Routing.upd Cert.Routing.asg
  refine (matmul_upd_apply _ _ k d).trans ?_
  refine Finset.sum_congr rfl fun r _ => ?_
  rw [probsK_apply]
  exact congrArg (fun s => Cert.Routing.soft s k * xc (ix2 r d)) (funext fun k' => scoresK_apply w b kn xc r k')

end Cert.KernelIdeal.Term

end
-- ==== Proof.KFinal.lean ====
import proofs.«422546_j29686813950006_3_alg».proof.Proof.Gen.KernelIdeal.Value
import proofs.«422546_j29686813950006_3_alg».proof.Proof.KTerm
import proofs.«422546_j29686813950006_3_alg».proof.Proof.KChunk
import proofs.«422546_j29686813950006_3_alg».proof.Proof.RowSpec
import Idealize.ShloMosaic.Lib.ValueIdx
import Idealize.ShloMosaic.Lib.ValueLayout
import Idealize.ShloMosaic.Lib.Pipeline.Value

/-!
# The kernel's output array after the run

Grid point `t` handles batch entry `t`: it stages the whole `4096 × 768` block of rows, the transposed keys, the
scale and shift rows and the slot values, and writes back block `t` of the output. So the output array at
`(bi, k, d)` is the chunked form of the routing update over the rows of batch entry `bi`.
-/

set_option maxRecDepth 16384

noncomputable section

namespace Cert.KernelIdeal.Final

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)
open Idealize.ShloMosaic.Tactic

section piece

variable {F : FTy → Type} [FloatOps F] [Named F]

theorem hz2 : (![0, 0] : Fin 2 → Nat) = fun _ => 0 := funext fun a => by fin_cases a <;> rfl
theorem hz3 : (![0, 0, 0] : Fin 3 → Nat) = fun _ => 0 := funext fun a => by fin_cases a <;> rfl

theorem inbRun0 : ∀ a, (![0, 0, 0] : Fin 3 → Nat) a + S1x1024x768.size a ≤ S1x4096x768.size a := by decide
theorem inbRun1 : ∀ a, (![0, 1024, 0] : Fin 3 → Nat) a + S1x1024x768.size a ≤ S1x4096x768.size a := by decide
theorem inbRun2 : ∀ a, (![0, 2048, 0] : Fin 3 → Nat) a + S1x1024x768.size a ≤ S1x4096x768.size a := by decide
theorem inbRun3 : ∀ a, (![0, 3072, 0] : Fin 3 → Nat) a + S1x1024x768.size a ≤ S1x4096x768.size a := by decide

/-- The body's arithmetic is the block function of the casts of its loads. -/
theorem pay_eq_blockOut (L1 : Vec F S768x4 .f32) (L2 L3 : Vec F S1x768 .f32) (L4 : Vec F S1x4x768 .f32)
    (C0 C1 C2 C3 : Vec F S1x1024x768 .f32) :
    k0_pay1 (k0_pay14 (k0_pay2 L2) (k0_pay3 L3) (k0_pay4 L1)
        (k0_pay13 (k0_pay2 L2) (k0_pay3 L3) (k0_pay4 L1)
          (k0_pay9 k0_pay5 (k0_pay6 C0) (k0_pay7 L2 L3 L1 C0) (k0_pay8 L2 L3 L1 C0))
          (k0_pay10 C1) (k0_pay11 (k0_pay2 L2) (k0_pay3 L3) (k0_pay4 L1) C1)
          (k0_pay12 (k0_pay2 L2) (k0_pay3 L3) (k0_pay4 L1) C1) C2) C3) L4
      = Term.blockOut (k0_pay2 L2) (k0_pay3 L3) (k0_pay4 L1) (k0_pay6 C0) (k0_pay10 C1)
          (shapeCast S1024x768 C2 shapeCasts_S1x1024x768_S1024x768)
          (shapeCast S1024x768 C3 shapeCasts_S1x1024x768_S1024x768) L4 := rfl

/-- What a grid point leaves in the output's staging buffer: the block function of the whole staged scale, shift,
    keys and slot values and of the four runs of `1024` rows of the staged block of rows. -/
theorem out_piece (c : Dev nD) (i : grid0.Coords) (arg1 : Memref sig .tc .vmem S1x4096x768 .f32) (harg1 : arg1.IsWhole)
    (arg2 : Memref sig .tc .vmem S768x4 .f32) (harg2 : arg2.IsWhole) (arg3 : Memref sig .tc .vmem S1x768 .f32) (harg3 : arg3.IsWhole)
    (arg4 : Memref sig .tc .vmem S1x768 .f32) (harg4 : arg4.IsWhole) (arg5 : Memref sig .tc .vmem S1x4x768 .f32) (harg5 : arg5.IsWhole)
    (arg6 : Memref sig .tc .vmem S1x4x768 .f32) (harg6 : arg6.IsWhole)
    (x0 : Vec F S1x4096x768 .f32) (x1 : Vec F S768x4 .f32) (x2 : Vec F S1x768 .f32) (x3 : Vec F S1x768 .f32) (x4 : Vec F S1x4x768 .f32) :
    out0_A_5 c i arg1 harg1 arg2 harg2 arg3 harg3 arg4 harg4 arg5 harg5 arg6 harg6 x0 x1 x2 x3 x4
      = Term.blockOut (k0_pay2 x2) (k0_pay3 x3) (k0_pay4 x1)
          (k0_pay6 (View.ld x0 (Rect.unit ![0, 0, 0] S1x1024x768.size inbRun0)))
          (k0_pay10 (View.ld x0 (Rect.unit ![0, 1024, 0] S1x1024x768.size inbRun1)))
          (shapeCast S1024x768 (View.ld x0 (Rect.unit ![0, 2048, 0] S1x1024x768.size inbRun2)) shapeCasts_S1x1024x768_S1024x768)
          (shapeCast S1024x768 (View.ld x0 (Rect.unit ![0, 3072, 0] S1x1024x768.size inbRun3)) shapeCasts_S1x1024x768_S1024x768) x4 := by
  unfold out0_A_5
  rw [View.read_writes_eq_canon _ _ _ (cover0_A_5 c i arg1 harg1 arg2 harg2 arg3 harg3 arg4 harg4 arg5 harg5 arg6 harg6 x0 x1 x2 x3 x4)]
  unfold kernelRun0_A
  dsimp only
  sl_unfold_words
  rw [View.canon_unit_zero hz3]
  simp only [View.readAt_eq_ld, harg1.read_unread, harg2.read_unread, harg3.read_unread, harg4.read_unread, harg5.read_unread,
    View.ld_unit_zero (S := S768x4) hz2, View.ld_unit_zero (S := S1x768) hz2, View.ld_unit_zero (S := S1x4x768) hz3]
  exact pay_eq_blockOut x1 x2 x3 x4 _ _ _ _

end piece

/-! ## The block function read at an index, on the extended reals -/

section read

/-- The named reciprocal of the row length. -/
abbrev cInv : EReal := Named.named (F := Ideal) κ "inv_768" (φ := .f32) 0x3AAAAAAB#32

/-- The stored block at slot `k`, column `d`: the slot value plus the four runs' updates, added in order (the
    accumulator starts at the zero word, which is the real zero). -/
theorem blockOut_apply (w b : FVec Ideal S1x768 .f32) (kn : FVec Ideal S768x4 .f32) (c0 c1 c2 c3 : FVec Ideal S1024x768 .f32)
    (sv : Vec Ideal S1x4x768 .f32) (k : Fin 4) (d : Fin 768) :
    Term.blockOut (F := Ideal) w b kn c0 c1 c2 c3 sv (ix3 (0 : Fin 1) k d)
      = sv (ix3 (0 : Fin 1) k d)
        + (((Term.chunkUpd (F := Ideal) w b kn c0 (ix2 k d) + Term.chunkUpd (F := Ideal) w b kn c1 (ix2 k d))
          + Term.chunkUpd (F := Ideal) w b kn c2 (ix2 k d)) + Term.chunkUpd (F := Ideal) w b kn c3 (ix2 k d)) := by
  unfold Term.blockOut
  rw [shapeCast_ab_1ab_apply, addf_apply, addf_apply, addf_apply, addf_apply, addf_apply, shapeCast_1ab_ab_apply,
    broadcast_apply]
  rw [show (Scalar.ofBits .f32 0x00000000#32 : Ideal .f32) = 0 from Ideal.ofBits_zero_f32, zero_add]

/-- A load of `1024` rows from row `1024 j` of the staged block reads row `r` of run `j`. -/
theorem ld_run_apply (x0 : Vec Ideal S1x4096x768 .f32) (j : Fin 4) (off : Fin 3 → Nat) (hoff : off = ![0, 1024 * j.val, 0])
    (inb : ∀ a, off a + S1x1024x768.size a ≤ S1x4096x768.size a) (r : Fin 1024) (d' : Fin 768) :
    View.ld x0 (Rect.unit off S1x1024x768.size inb) (ix3 (0 : Fin 1) r d') = x0 (ix3 (0 : Fin 1) (Cert.Routing.ch j r) d') := by
  subst hoff
  refine congrArg x0 (funext fun a => Fin.ext ?_)
  match a with
  | ⟨0, _⟩ => show 0 + 1 * 0 = 0; omega
  | ⟨1, _⟩ => show 1024 * j.val + 1 * r.val = 1024 * j.val + r.val; omega
  | ⟨2, _⟩ => show 0 + 1 * d'.val = d'.val; omega

end read

section point

/-- AT ONE GRID POINT, over the staged contents as variables: the stored block at slot `k`, column `d` is the chunked
    form over the staged rows, scale, shift, keys and slot values. -/
theorem point_apply (x0 : Vec Ideal S1x4096x768 .f32) (x1 : Vec Ideal S768x4 .f32) (x2 x3 : Vec Ideal S1x768 .f32)
    (x4 : Vec Ideal S1x4x768 .f32) (k : Fin 4) (d : Fin 768) :
    Term.blockOut (F := Ideal) (k0_pay2 x2) (k0_pay3 x3) (k0_pay4 x1)
        (k0_pay6 (View.ld x0 (Rect.unit ![0, 0, 0] S1x1024x768.size inbRun0)))
        (k0_pay10 (View.ld x0 (Rect.unit ![0, 1024, 0] S1x1024x768.size inbRun1)))
        (shapeCast S1024x768 (View.ld x0 (Rect.unit ![0, 2048, 0] S1x1024x768.size inbRun2)) shapeCasts_S1x1024x768_S1024x768)
        (shapeCast S1024x768 (View.ld x0 (Rect.unit ![0, 3072, 0] S1x1024x768.size inbRun3)) shapeCasts_S1x1024x768_S1024x768)
        x4 (ix3 (0 : Fin 1) k d)
      = Cert.Routing.GK cInv (fun n d' => x0 (ix3 (0 : Fin 1) n d')) (fun d' => x2 (ix2 (0 : Fin 1) d'))
          (fun d' => x3 (ix2 (0 : Fin 1) d')) (fun k' d' => x1 (ix2 d' k')) (x4 (ix3 (0 : Fin 1) k d)) k d := by
  rw [blockOut_apply, Term.chunkUpd_apply, Term.chunkUpd_apply, Term.chunkUpd_apply, Term.chunkUpd_apply]
  have e2 : k0_pay2 x2 = x2 := shapeCast_self _ _
  have e3 : k0_pay3 x3 = x3 := shapeCast_self _ _
  have e4 : k0_pay4 x1 = x1 := shapeCast_self _ _
  have r0 : (fun (r : Fin 1024) (d' : Fin 768) => k0_pay6 (View.ld x0 (Rect.unit ![0, 0, 0] S1x1024x768.size inbRun0)) (ix2 r d'))
      = fun r d' => x0 (ix3 (0 : Fin 1) (Cert.Routing.ch 0 r) d') := funext fun r => funext fun d' =>
    (shapeCast_1ab_ab_apply _ _ r d').trans (ld_run_apply x0 0 _ rfl _ r d')
  have r1 : (fun (r : Fin 1024) (d' : Fin 768) => k0_pay10 (View.ld x0 (Rect.unit ![0, 1024, 0] S1x1024x768.size inbRun1)) (ix2 r d'))
      = fun r d' => x0 (ix3 (0 : Fin 1) (Cert.Routing.ch 1 r) d') := funext fun r => funext fun d' =>
    (shapeCast_1ab_ab_apply _ _ r d').trans (ld_run_apply x0 1 _ rfl _ r d')
  have r2 : (fun (r : Fin 1024) (d' : Fin 768) => shapeCast S1024x768 (View.ld x0 (Rect.unit ![0, 2048, 0] S1x1024x768.size inbRun2)) shapeCasts_S1x1024x768_S1024x768 (ix2 r d'))
      = fun r d' => x0 (ix3 (0 : Fin 1) (Cert.Routing.ch 2 r) d') := funext fun r => funext fun d' =>
    (shapeCast_1ab_ab_apply _ _ r d').trans (ld_run_apply x0 2 _ rfl _ r d')
  have r3 : (fun (r : Fin 1024) (d' : Fin 768) => shapeCast S1024x768 (View.ld x0 (Rect.unit ![0, 3072, 0] S1x1024x768.size inbRun3)) shapeCasts_S1x1024x768_S1024x768 (ix2 r d'))
      = fun r d' => x0 (ix3 (0 : Fin 1) (Cert.Routing.ch 3 r) d') := funext fun r => funext fun d' =>
    (shapeCast_1ab_ab_apply _ _ r d').trans (ld_run_apply x0 3 _ rfl _ r d')
  rw [e2, e3, e4, r0, r1, r2, r3]
  rfl

end point

/-! ## From a grid point's block to the array -/

variable (m : (ℓ : Loc nD τ sig) → Buf (Elt Ideal) ℓ)

/-- What grid point `t` finds staged, window by window: the block of rows, the keys, the scale and shift rows, the
    slot values. -/
abbrev rowsBlk (c : Dev nD) (t : Fin cfg0.N) : Vec Ideal S1x4096x768 .f32 := iblk m c 0 t
abbrev keysBlk (c : Dev nD) (t : Fin cfg0.N) : Vec Ideal S768x4 .f32 := iblk m c 1 t
abbrev scaleBlk (c : Dev nD) (t : Fin cfg0.N) : Vec Ideal S1x768 .f32 := iblk m c 2 t
abbrev shiftBlk (c : Dev nD) (t : Fin cfg0.N) : Vec Ideal S1x768 .f32 := iblk m c 3 t
abbrev slotBlk (c : Dev nD) (t : Fin cfg0.N) : Vec Ideal S1x4x768 .f32 := iblk m c 4 t

/-- The index maps over the grid: the block index of the rows and of the output is the point on the batch axis and zero
    on the others; every other window's block index is zero. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = 0 ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0 :=
  (by decide +kernel : ∀ t : Fin grid0.N, _)

/-- Row `n` of the staged block of rows at point `t` is row `n` of batch entry `t`. -/
theorem rowsBlk_apply (c : Dev nD) (t : Fin cfg0.N) (bi : Fin 8) (hbi : bi.val = t.val) (n : Fin 4096) (d' : Fin 768) :
    rowsBlk m c t (ix3 (0 : Fin 1) n d') = (V m c main_arg0 : S8x4096x768.Idx → EReal) (ix3 bi n d') := by
  obtain ⟨e0, e1, e2, -⟩ := idx_facts t
  show V m c main_arg0 (((cfg0.win 0).blk t).view.emb (ix3 (0 : Fin 1) n d')) = V m c main_arg0 (ix3 bi n d')
  have h : ((cfg0.win 0).blk t).view.emb (ix3 (0 : Fin 1) n d') = ix3 bi n d' := by
    funext a; apply Fin.ext
    match a with
    | ⟨0, _⟩ => show win0_0.index t (0 : Fin 3) * 1 + 1 * 0 = bi.val; omega
    | ⟨1, _⟩ => show win0_0.index t (1 : Fin 3) * 4096 + 1 * n.val = n.val; omega
    | ⟨2, _⟩ => show win0_0.index t (2 : Fin 3) * 768 + 1 * d'.val = d'.val; omega
  rw [h]

/-- The staged keys are the whole array of keys. -/
theorem keysBlk_eq (c : Dev nD) (t : Fin cfg0.N) : keysBlk m c t = (V m c main_v19 : S768x4.Idx → EReal) := by
  obtain ⟨-, -, -, e0, e1, -⟩ := idx_facts t
  funext y
  show V m c main_v19 (((cfg0.win 1).blk t).view.emb y) = V m c main_v19 y
  have h : ((cfg0.win 1).blk t).view.emb y = y := by
    funext a; apply Fin.ext
    match a with
    | ⟨0, _⟩ => show win0_1.index t (0 : Fin 2) * 768 + 1 * (y 0).val = (y 0).val; omega
    | ⟨1, _⟩ => show win0_1.index t (1 : Fin 2) * 4 + 1 * (y 1).val = (y 1).val; omega
  rw [h]

/-- The staged scale row is the whole scale array. -/
theorem scaleBlk_eq (c : Dev nD) (t : Fin cfg0.N) : scaleBlk m c t = (V m c main_v20 : S1x768.Idx → EReal) := by
  obtain ⟨-, -, -, -, -, e0, e1, -⟩ := idx_facts t
  funext y
  show V m c main_v20 (((cfg0.win 2).blk t).view.emb y) = V m c main_v20 y
  have h : ((cfg0.win 2).blk t).view.emb y = y := by
    funext a; apply Fin.ext
    match a with
    | ⟨0, _⟩ => show win0_2.index t (0 : Fin 2) * 1 + 1 * (y 0).val = (y 0).val; omega
    | ⟨1, _⟩ => show win0_2.index t (1 : Fin 2) * 768 + 1 * (y 1).val = (y 1).val; omega
  rw [h]

/-- The staged shift row is the whole shift array. -/
theorem shiftBlk_eq (c : Dev nD) (t : Fin cfg0.N) : shiftBlk m c t = (V m c main_v21 : S1x768.Idx → EReal) := by
  obtain ⟨-, -, -, -, -, -, -, e0, e1, -⟩ := idx_facts t
  funext y
  show V m c main_v21 (((cfg0.win 3).blk t).view.emb y) = V m c main_v21 y
  have h : ((cfg0.win 3).blk t).view.emb y = y := by
    funext a; apply Fin.ext
    match a with
    | ⟨0, _⟩ => show win0_3.index t (0 : Fin 2) * 1 + 1 * (y 0).val = (y 0).val; omega
    | ⟨1, _⟩ => show win0_3.index t (1 : Fin 2) * 768 + 1 * (y 1).val = (y 1).val; omega
  rw [h]

/-- The staged slot values are the whole array of slot values. -/
theorem slotBlk_eq (c : Dev nD) (t : Fin cfg0.N) : slotBlk m c t = (V m c main_arg2 : S1x4x768.Idx → EReal) := by
  obtain ⟨-, -, -, -, -, -, -, -, -, e0, e1, e2, -⟩ := idx_facts t
  funext y
  show V m c main_arg2 (((cfg0.win 4).blk t).view.emb y) = V m c main_arg2 y
  have h : ((cfg0.win 4).blk t).view.emb y = y := by
    funext a; apply Fin.ext
    match a with
    | ⟨0, _⟩ => show win0_4.index t (0 : Fin 3) * 1 + 1 * (y 0).val = (y 0).val; omega
    | ⟨1, _⟩ => show win0_4.index t (1 : Fin 3) * 4 + 1 * (y 1).val = (y 1).val; omega
    | ⟨2, _⟩ => show win0_4.index t (2 : Fin 3) * 768 + 1 * (y 2).val = (y 2).val; omega
  rw [h]

/-- WHAT POINT `t` WRITES BACK, at slot `k` and column `d`: the chunked form over the rows of batch entry `t`. -/
theorem flushed_apply (c : Dev nD) (t : Fin cfg0.N) (bi : Fin 8) (hbi : bi.val = t.val) (k : Fin 4) (d : Fin 768) :
    (dats m 0 c).flushed 5 t (ix3 (0 : Fin 1) k d)
      = Cert.Routing.GK cInv
          (fun n d' => (V m c main_arg0 : S8x4096x768.Idx → EReal) (ix3 bi n d'))
          (fun d' => (V m c main_v20 : S1x768.Idx → EReal) (ix2 (0 : Fin 1) d'))
          (fun d' => (V m c main_v21 : S1x768.Idx → EReal) (ix2 (0 : Fin 1) d'))
          (fun k' d' => (V m c main_v19 : S768x4.Idx → EReal) (ix2 d' k'))
          ((V m c main_arg2 : S1x4x768.Idx → EReal) (ix3 (0 : Fin 1) k d)) k d := by
  rw [flushed5_A]
  show out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (rowsBlk m c t) (keysBlk m c t) (scaleBlk m c t) (shiftBlk m c t) (slotBlk m c t) (ix3 (0 : Fin 1) k d) = _
  refine (congrFun (out_piece (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (rowsBlk m c t) (keysBlk m c t) (scaleBlk m c t) (shiftBlk m c t) (slotBlk m c t)) (ix3 (0 : Fin 1) k d)).trans ?_
  refine (point_apply (rowsBlk m c t) (keysBlk m c t) (scaleBlk m c t) (shiftBlk m c t) (slotBlk m c t) k d).trans ?_
  have hr : (fun (n : Fin 4096) (d' : Fin 768) => rowsBlk m c t (ix3 (0 : Fin 1) n d'))
      = fun n d' => (V m c main_arg0 : S8x4096x768.Idx → EReal) (ix3 bi n d') :=
    funext fun n => funext fun d' => rowsBlk_apply m c t bi hbi n d'
  rw [hr, keysBlk_eq, scaleBlk_eq, shiftBlk_eq, slotBlk_eq]

theorem kernel_final (c : Dev nD) (bi : Fin 8) (k : Fin 4) (d : Fin 768) :
    (dats m 0 c).arrAt 5 cfg0.N (ix3 bi k d)
      = Cert.Routing.GK (Named.named (F := Ideal) κ "inv_768" (φ := .f32) 0x3AAAAAAB#32)
          (fun n d' => (V m c main_arg0 : S8x4096x768.Idx → EReal) (ix3 bi n d'))
          (fun d' => (V m c main_v20 : S1x768.Idx → EReal) (ix2 (0 : Fin 1) d'))
          (fun d' => (V m c main_v21 : S1x768.Idx → EReal) (ix2 (0 : Fin 1) d'))
          (fun k' d' => (V m c main_v19 : S768x4.Idx → EReal) (ix2 d' k'))
          ((V m c main_arg2 : S1x4x768.Idx → EReal) (ix3 (0 : Fin 1) k d)) k d := by
  have hN : cfg0.N = 8 := N_0
  have hlt : bi.val < cfg0.N := by rw [hN]; exact bi.isLt
  have hb : (dats m 0 c).arrAt 5 cfg0.N (((cfg0.win 5).blk ⟨bi.val, hlt⟩).view.emb (ix3 (0 : Fin 1) k d))
      = (dats m 0 c).flushed 5 ⟨bi.val, hlt⟩ (ix3 (0 : Fin 1) k d) :=
    congrFun (blocks5 m c ⟨bi.val, hlt⟩ (flush0_5 _)) (ix3 (0 : Fin 1) k d)
  have he : ((cfg0.win 5).blk ⟨bi.val, hlt⟩).view.emb (ix3 (0 : Fin 1) k d) = ix3 bi k d := by
    obtain ⟨-, -, -, -, -, -, -, -, -, -, -, -, e0, e1, e2⟩ := idx_facts ⟨bi.val, hlt⟩
    have e0' : win0_5.index ⟨bi.val, hlt⟩ (0 : Fin 3) = bi.val := e0
    funext a; apply Fin.ext
    match a with
    | ⟨0, _⟩ => show win0_5.index ⟨bi.val, hlt⟩ (0 : Fin 3) * 1 + 1 * 0 = bi.val; omega
    | ⟨1, _⟩ => show win0_5.index ⟨bi.val, hlt⟩ (1 : Fin 3) * 4 + 1 * k.val = k.val; omega
    | ⟨2, _⟩ => show win0_5.index ⟨bi.val, hlt⟩ (2 : Fin 3) * 768 + 1 * d.val = d.val; omega
  rw [he] at hb
  rw [hb]
  exact flushed_apply m c ⟨bi.val, hlt⟩ bi rfl k d

end Cert.KernelIdeal.Final

end
-- ==== Proof.RefRead.lean ====
import proofs.«422546_j29686813950006_3_alg».proof.Proof.Gen.ReferenceIdeal
import proofs.«422546_j29686813950006_3_alg».proof.Proof.RefTerm
import proofs.«422546_j29686813950006_3_alg».proof.Proof.RowSpec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

/-!
# The reference's result, read at an index

At the extended reals the reference's result at `(bi, k, d)` is the slot value plus the sum over the `4096` rows of
batch entry `bi` of the row's softmax weight for slot `k` (two-pass statistics) times the row's entry at `d`; the
keys are the rows of the normalised slot keys `Term.knorm`.

Every stage of the composition is read at one symbolic index: a sum or a maximum over one axis becomes a sum or a
fold over that axis's coordinates, a broadcast reads its operand at the coordinates it keeps, a contraction becomes
the sum over its one contracted coordinate.
-/

noncomputable section

namespace Cert.ReferenceIdeal.Term

open Cert.ReferenceIdeal Idealize.ShloMosaic Idealize.ShloMosaic.ValueIdx

/-! ## Indices -/

/-- A row index of a rank-3 array with the last coordinate put back. -/
theorem lift3_last {A B C : Nat} (h : (⟨3, ![A, B, C]⟩ : Shape).Reduces [2] ⟨2, ![A, B]⟩) (i : Fin A) (j : Fin B)
    (k : Fin ((⟨3, ![A, B, C]⟩ : Shape).size 2)) :
    h.lift (ix2 i j) k = ix3 i j (⟨k.val, k.isLt⟩ : Fin C) := by
  funext c; apply Fin.ext
  fin_cases c <;> rfl

/-- The sum over the last axis of a rank-3 array, from an initial value. -/
theorem rowSum_apply {A B C : Nat} (x : FVec Ideal ⟨3, ![A, B, C]⟩ .f32) (init : (⟨0, ![]⟩ : Shape).Idx → Ideal .f32)
    (h' : (⟨3, ![A, B, C]⟩ : Shape).ReducesTo [2] ⟨2, ![A, B]⟩) (h : (⟨3, ![A, B, C]⟩ : Shape).Reduces [2] ⟨2, ![A, B]⟩)
    (hu : 0 < (⟨0, ![]⟩ : Shape).numel) (i : Fin A) (j : Fin B) :
    Host.reduceAdd x init h' hu (ix2 i j) = init (Shape.Idx.first hu) + ∑ k : Fin C, x (ix3 i j k) := by
  rw [hostReduceAdd_apply, Ideal.hostReduceAdd_single h' h]
  refine congrArg (init (Shape.Idx.first hu) + ·) ?_
  exact Finset.sum_congr rfl fun k _ => congrArg x (lift3_last h i j k)

/-! ## Broadcasts read at an index -/

variable {α : Type}

/-- [A, B] laid along a new unit last axis. -/
theorem bcast_keep_apply {A B : Nat} (h : (⟨2, ![A, B]⟩ : Shape).BroadcastsInDim ⟨3, ![A, B, 1]⟩ ![0, 1])
    (y : (⟨2, ![A, B]⟩ : Shape).Idx → α) (i : Fin A) (j : Fin B) :
    broadcastInDim ⟨3, ![A, B, 1]⟩ ![0, 1] h y (ix3 i j (0 : Fin 1)) = y (ix2 i j) := by
  refine broadcastInDim_apply ![0, 1] h y (ix3 i j (0 : Fin 1)) (ix2 i j) ?_
  intro a
  fin_cases a
  · show i.val = if A = 1 then 0 else i.val
    split
    · have := i.isLt; omega
    · rfl
  · show j.val = if B = 1 then 0 else j.val
    split
    · have := j.isLt; omega
    · rfl

/-- [A, B, 1] spread along the last axis. -/
theorem bcast_spread_apply {A B C : Nat} (h : (⟨3, ![A, B, 1]⟩ : Shape).BroadcastsInDim ⟨3, ![A, B, C]⟩ ![0, 1, 2])
    (y : (⟨3, ![A, B, 1]⟩ : Shape).Idx → α) (i : Fin A) (j : Fin B) (k : Fin C) :
    broadcastInDim ⟨3, ![A, B, C]⟩ ![0, 1, 2] h y (ix3 i j k) = y (ix3 i j (0 : Fin 1)) := by
  refine broadcastInDim_apply ![0, 1, 2] h y (ix3 i j k) (ix3 i j (0 : Fin 1)) ?_
  intro a
  fin_cases a
  · show i.val = if A = 1 then 0 else i.val
    split
    · have := i.isLt; omega
    · rfl
  · show j.val = if B = 1 then 0 else j.val
    split
    · have := j.isLt; omega
    · rfl
  · show (0 : ℕ) = if (1 : ℕ) = 1 then 0 else k.val
    rfl

/-- [C] as a [1, 1, C] array. -/
theorem bcast_vec_apply {C : Nat} (h : (⟨1, ![C]⟩ : Shape).BroadcastsInDim ⟨3, ![1, 1, C]⟩ ![2])
    (y : (⟨1, ![C]⟩ : Shape).Idx → α) (k : Fin C) :
    broadcastInDim ⟨3, ![1, 1, C]⟩ ![2] h y (ix3 (0 : Fin 1) (0 : Fin 1) k) = y (ix1 k) := by
  refine broadcastInDim_apply ![2] h y (ix3 (0 : Fin 1) (0 : Fin 1) k) (ix1 k) ?_
  intro a
  fin_cases a
  show k.val = if C = 1 then 0 else k.val
  split
  · have := k.isLt; omega
  · rfl

/-- [1, 1, C] repeated over the two leading axes. -/
theorem bcast_rows_apply {A B C : Nat} (h : (⟨3, ![1, 1, C]⟩ : Shape).BroadcastsInDim ⟨3, ![A, B, C]⟩ ![0, 1, 2])
    (y : (⟨3, ![1, 1, C]⟩ : Shape).Idx → α) (i : Fin A) (j : Fin B) (k : Fin C) :
    broadcastInDim ⟨3, ![A, B, C]⟩ ![0, 1, 2] h y (ix3 i j k) = y (ix3 (0 : Fin 1) (0 : Fin 1) k) := by
  refine broadcastInDim_apply ![0, 1, 2] h y (ix3 i j k) (ix3 (0 : Fin 1) (0 : Fin 1) k) ?_
  intro a
  fin_cases a
  · show (0 : ℕ) = if (1 : ℕ) = 1 then 0 else i.val
    rfl
  · show (0 : ℕ) = if (1 : ℕ) = 1 then 0 else j.val
    rfl
  · show k.val = if C = 1 then 0 else k.val
    split
    · have := k.isLt; omega
    · rfl

/-- [1, B, C] repeated over the leading axis. -/
theorem bcast_lead_apply {A B C : Nat} (h : (⟨3, ![1, B, C]⟩ : Shape).BroadcastsInDim ⟨3, ![A, B, C]⟩ ![0, 1, 2])
    (y : (⟨3, ![1, B, C]⟩ : Shape).Idx → α) (i : Fin A) (j : Fin B) (k : Fin C) :
    broadcastInDim ⟨3, ![A, B, C]⟩ ![0, 1, 2] h y (ix3 i j k) = y (ix3 (0 : Fin 1) j k) := by
  refine broadcastInDim_apply ![0, 1, 2] h y (ix3 i j k) (ix3 (0 : Fin 1) j k) ?_
  intro a
  fin_cases a
  · show (0 : ℕ) = if (1 : ℕ) = 1 then 0 else i.val
    rfl
  · show j.val = if B = 1 then 0 else j.val
    split
    · have := j.isLt; omega
    · rfl
  · show k.val = if C = 1 then 0 else k.val
    split
    · have := k.isLt; omega
    · rfl

/-! ## Constants -/

/-- The word of `768.0` is the real `768`. -/
theorem n768_eq : Cert.Routing.n768 = ((768 : ℝ) : EReal) := by
  simp [Ideal.ofBits, Ideal.ieee, -EReal.coe_mul]; norm_num

/-! ## The row statistics -/

theorem meanX_apply (x : FVec Ideal S8x4096x768 .f32) (bi : Fin 8) (n : Fin 4096) :
    meanX (F := Ideal) x (ix3 bi n (0 : Fin 1)) = Cert.Routing.muR (fun d => x (ix3 bi n d)) := by
  unfold meanX Cert.Routing.muR
  rw [hostDivf_apply, bcast_keep_apply, broadcastInDim_scalar_apply, constant_apply,
    rowSum_apply x _ _ (by decide), constant_apply, Ideal.ofBits_zero_f32, zero_add]

/-- The divisor the program computes, `768 - 0`, is `768`. -/
theorem denom_apply : denom (F := Ideal) ix0 = Cert.Routing.n768 := by
  unfold denom
  rw [subf_apply, constant_apply]
  show Ideal.ofBits .f32 0x44400000#32 - (((0#32 : BitVec 32).toInt : ℝ) : EReal) = _
  rw [show (0#32 : BitVec 32).toInt = 0 from rfl]
  simp

/-- The divisor is positive. -/
theorem denom_pos : cmpf .ogt (denom (F := Ideal)) (constant S_ .f32 0x00000000#32) ix0 = 1#1 := by
  rw [cmpf_apply, denom_apply, constant_apply, Ideal.ofBits_zero_f32, Ideal.cmpf_def, n768_eq]
  have h : (0 : EReal) < ((768 : ℝ) : EReal) := by exact_mod_cast (by norm_num : (0 : ℝ) < 768)
  simp [Ideal.cmp, h]

theorem devX_apply (x : FVec Ideal S8x4096x768 .f32) (bi : Fin 8) (n : Fin 4096) (d : Fin 768) :
    devX (F := Ideal) x (ix3 bi n d) = x (ix3 bi n d) - Cert.Routing.muR (fun d' => x (ix3 bi n d')) := by
  unfold devX
  rw [subf_apply, bcast_spread_apply, meanX_apply]

theorem varX_apply (x : FVec Ideal S8x4096x768 .f32) (bi : Fin 8) (n : Fin 4096) :
    varX (F := Ideal) x (ix3 bi n (0 : Fin 1)) = Cert.Routing.varR (fun d => x (ix3 bi n d)) := by
  unfold varX Cert.Routing.varR
  rw [select_apply, broadcastInDim_scalar_apply, denom_pos, select_one,
    hostDivf_apply, bcast_keep_apply, broadcastInDim_scalar_apply, denom_apply,
    rowSum_apply _ _ _ (by decide), constant_apply, Ideal.ofBits_zero_f32, zero_add]
  refine congrArg (fun s => Ideal.div s Cert.Routing.n768) ?_
  exact Finset.sum_congr rfl fun d _ => by rw [mulf_apply, devX_apply]

/-! ## The normalised rows -/

theorem lnX_apply (x : FVec Ideal S8x4096x768 .f32) (w b : FVec Ideal S768 .f32) (bi : Fin 8) (n : Fin 4096) (d : Fin 768) :
    lnX (F := Ideal) x w b (ix3 bi n d)
      = Cert.Routing.normed (fun d' => w (ix1 d')) (fun d' => b (ix1 d')) (fun d' => x (ix3 bi n d'))
          (Cert.Routing.muR (fun d' => x (ix3 bi n d'))) (Cert.Routing.varR (fun d' => x (ix3 bi n d'))) d := by
  unfold lnX Cert.Routing.normed
  rw [addf_apply, mulf_apply, mulf_apply, devX_apply, bcast_spread_apply, bcast_rows_apply, bcast_vec_apply,
    bcast_rows_apply, bcast_vec_apply]
  show _ * Ideal.rsqrt (addf (varX x) _ (ix3 bi n (0 : Fin 1))) * _ + _ = _
  rw [addf_apply, varX_apply, broadcastInDim_scalar_apply, constant_apply]

/-! ## The scores -/

/-- A column index of a rank-3 array with the first coordinate put back. -/
theorem lift3_first {A B C : Nat} (h : (⟨3, ![A, B, C]⟩ : Shape).Reduces [0] ⟨2, ![B, C]⟩) (j : Fin B) (k : Fin C)
    (u : Fin ((⟨3, ![A, B, C]⟩ : Shape).size 0)) :
    h.lift (ix2 j k) u = ix3 (⟨u.val, u.isLt⟩ : Fin A) j k := by
  funext c; apply Fin.ext
  fin_cases c <;> rfl

/-- The keys with their unit leading axis summed away. -/
theorem keySum_apply (kn : FVec Ideal S1x4x768 .f32) (k : Fin 4) (d : Fin 768) :
    Host.reduceAdd kn (constant (F := Ideal) S_ .f32 0x00000000#32) Facts₀.reducesTo_S1x4x768_S4x768_d0 Facts₀.h_S_ (ix2 k d)
      = kn (ix3 (0 : Fin 1) k d) := by
  have h : S1x4x768.Reduces [0] S4x768 := by decide
  rw [hostReduceAdd_apply, Ideal.hostReduceAdd_single _ h, constant_apply, Ideal.ofBits_zero_f32, zero_add]
  have e : ∀ u : Fin (S1x4x768.size 0), kn (h.lift (ix2 k d) u) = kn (ix3 (0 : Fin 1) k d) := fun u => by
    rw [lift3_first h k d u]
    exact congrArg (fun i : Fin 1 => kn (ix3 i k d)) (Subsingleton.elim _ _)
  rw [Finset.sum_congr rfl fun u _ => e u]
  exact Fin.sum_univ_one (fun _ : Fin 1 => kn (ix3 (0 : Fin 1) k d))

theorem scores_apply (xn : FVec Ideal S8x4096x768 .f32) (kn : FVec Ideal S1x4x768 .f32) (bi : Fin 8) (n : Fin 4096) (k : Fin 4) :
    scores (F := Ideal) xn kn (ix3 bi n k) = ∑ d : Fin 768, xn (ix3 bi n d) * kn (ix3 (0 : Fin 1) k d) := by
  unfold scores
  generalize hR : Host.reduceAdd kn (constant (F := Ideal) S_ .f32 0x00000000#32) Facts₀.reducesTo_S1x4x768_S4x768_d0 Facts₀.h_S_ = R
  show FloatOps.dotGeneral _ none _ xn R (ix3 bi n k) = _
  rw [Ideal.dotGeneral_apply,
    ← Equiv.sum_comp (contrEquiv1 dot_S8x4096x768_S4x768_S8x4096x4_2_1_01_0_n_n 768 rfl rfl).symm]
  refine Finset.sum_congr rfl fun c _ => ?_
  have c3 := contrEquiv1_symm_val dot_S8x4096x768_S4x768_S8x4096x4_2_1_01_0_n_n 768 rfl rfl c
  have l3 : dot_S8x4096x768_S4x768_S8x4096x4_2_1_01_0_n_n.lhsIdx (ix3 bi n k)
      ((contrEquiv1 dot_S8x4096x768_S4x768_S8x4096x4_2_1_01_0_n_n 768 rfl rfl).symm c) = ix3 bi n c := by
    funext ax; apply Fin.ext
    match ax with
    | ⟨0, _⟩ => simp [DotDims.lhsIdx, dot_S8x4096x768_S4x768_S8x4096x4_2_1_01_0_n_n]; rfl
    | ⟨1, _⟩ => simp [DotDims.lhsIdx, dot_S8x4096x768_S4x768_S8x4096x4_2_1_01_0_n_n]; rfl
    | ⟨2, _⟩ => simp [DotDims.lhsIdx, dot_S8x4096x768_S4x768_S8x4096x4_2_1_01_0_n_n]; exact c3
  have r3 : dot_S8x4096x768_S4x768_S8x4096x4_2_1_01_0_n_n.rhsIdx (ix3 bi n k)
      ((contrEquiv1 dot_S8x4096x768_S4x768_S8x4096x4_2_1_01_0_n_n 768 rfl rfl).symm c) = ix2 k c := by
    funext ax; apply Fin.ext
    match ax with
    | ⟨0, _⟩ => simp [DotDims.rhsIdx, dot_S8x4096x768_S4x768_S8x4096x4_2_1_01_0_n_n]; rfl
    | ⟨1, _⟩ => simp [DotDims.rhsIdx, dot_S8x4096x768_S4x768_S8x4096x4_2_1_01_0_n_n]; exact c3
  rw [l3, r3, ← hR, keySum_apply]

/-! ## The softmax -/

/-- The maximum over the last axis of a rank-3 array, from an initial value. -/
theorem rowMax_apply {A B C : Nat} (s : FVec Ideal ⟨3, ![A, B, C]⟩ .f32) (init : (⟨0, ![]⟩ : Shape).Idx → Ideal .f32)
    (h' : (⟨3, ![A, B, C]⟩ : Shape).ReducesTo [2] ⟨2, ![A, B]⟩) (h : (⟨3, ![A, B, C]⟩ : Shape).Reduces [2] ⟨2, ![A, B]⟩)
    (hu : 0 < (⟨0, ![]⟩ : Shape).numel) (i : Fin A) (j : Fin B) :
    Host.reduce FloatOps.maximumf s init h' hu (ix2 i j)
      = (Finset.univ : Finset (Fin C)).fold max (init (Shape.Idx.first hu)) (fun k => s (ix3 i j k)) := by
  rw [Host.reduce_eq_fold_single FloatOps.maximumf s _ h' h hu]
  have hf : (s ∘ h.lift (ix2 i j)) = fun k : Fin C => s (ix3 i j k) := funext fun k => congrArg s (lift3_last h i j k)
  exact congrArg (fun f => Finset.fold max (init (Shape.Idx.first hu)) f (Finset.univ : Finset (Fin C))) hf

theorem expo_apply (s : FVec Ideal S8x4096x4 .f32) (bi : Fin 8) (n : Fin 4096) (k : Fin 4) :
    expo (F := Ideal) s (ix3 bi n k)
      = Ideal.exp (s (ix3 bi n k) - Cert.Routing.rowMax (fun k' => s (ix3 bi n k'))) := by
  unfold expo Cert.Routing.rowMax
  show Ideal.exp (subf s _ (ix3 bi n k)) = _
  rw [subf_apply, bcast_spread_apply, bcast_keep_apply, maximumf_apply, broadcastInDim_scalar_apply, constant_apply,
    rowMax_apply s _ _ (by decide), constant_apply]
  rw [max_eq_right ((Finset.le_fold_max _).mpr (Or.inl le_rfl))]

theorem probs_apply (s : FVec Ideal S8x4096x4 .f32) (bi : Fin 8) (n : Fin 4096) (k : Fin 4) :
    probs (F := Ideal) s (ix3 bi n k) = Cert.Routing.soft (fun k' => s (ix3 bi n k')) k := by
  unfold probs Cert.Routing.soft
  rw [hostDivf_apply, bcast_spread_apply, bcast_keep_apply, rowSum_apply _ _ _ (by decide), constant_apply,
    Ideal.ofBits_zero_f32, zero_add, expo_apply]
  refine congrArg (Ideal.div _) ?_
  exact Finset.sum_congr rfl fun k' _ => expo_apply s bi n k'

/-! ## The update -/

/-- The weighted sum of the rows of one batch entry. -/
theorem update_apply (p : FVec Ideal S8x4096x4 .f32) (x : FVec Ideal S8x4096x768 .f32) (bi : Fin 8) (k : Fin 4) (d : Fin 768) :
    Host.dotGeneral dot_S8x4096x4_S8x4096x768_S8x4x768_1_1_2_2_0_0 none p x (ix3 bi k d)
      = ∑ n : Fin 4096, p (ix3 bi n k) * x (ix3 bi n d) := by
  show FloatOps.dotGeneral _ none _ p x (ix3 bi k d) = _
  rw [Ideal.dotGeneral_apply,
    ← Equiv.sum_comp (contrEquiv1 dot_S8x4096x4_S8x4096x768_S8x4x768_1_1_2_2_0_0 4096 rfl rfl).symm]
  refine Finset.sum_congr rfl fun c _ => ?_
  have c3 := contrEquiv1_symm_val dot_S8x4096x4_S8x4096x768_S8x4x768_1_1_2_2_0_0 4096 rfl rfl c
  have l3 : dot_S8x4096x4_S8x4096x768_S8x4x768_1_1_2_2_0_0.lhsIdx (ix3 bi k d)
      ((contrEquiv1 dot_S8x4096x4_S8x4096x768_S8x4x768_1_1_2_2_0_0 4096 rfl rfl).symm c) = ix3 bi c k := by
    funext ax; apply Fin.ext
    match ax with
    | ⟨0, _⟩ => simp [DotDims.lhsIdx, dot_S8x4096x4_S8x4096x768_S8x4x768_1_1_2_2_0_0]; rfl
    | ⟨1, _⟩ => simp [DotDims.lhsIdx, dot_S8x4096x4_S8x4096x768_S8x4x768_1_1_2_2_0_0]; exact c3
    | ⟨2, _⟩ => simp [DotDims.lhsIdx, dot_S8x4096x4_S8x4096x768_S8x4x768_1_1_2_2_0_0]; rfl
  have r3 : dot_S8x4096x4_S8x4096x768_S8x4x768_1_1_2_2_0_0.rhsIdx (ix3 bi k d)
      ((contrEquiv1 dot_S8x4096x4_S8x4096x768_S8x4x768_1_1_2_2_0_0 4096 rfl rfl).symm c) = ix3 bi c d := by
    funext ax; apply Fin.ext
    match ax with
    | ⟨0, _⟩ => simp [DotDims.rhsIdx, dot_S8x4096x4_S8x4096x768_S8x4x768_1_1_2_2_0_0]; rfl
    | ⟨1, _⟩ => simp [DotDims.rhsIdx, dot_S8x4096x4_S8x4096x768_S8x4x768_1_1_2_2_0_0]; exact c3
    | ⟨2, _⟩ => simp [DotDims.rhsIdx, dot_S8x4096x4_S8x4096x768_S8x4x768_1_1_2_2_0_0]; rfl
  rw [l3, r3]

/-- The weight of row `n` of batch entry `bi` for slot `k`. -/
theorem weight_apply (x : FVec Ideal S8x4096x768 .f32) (kn : FVec Ideal S1x4x768 .f32) (w b : FVec Ideal S768 .f32)
    (bi : Fin 8) (n : Fin 4096) (k : Fin 4) :
    probs (F := Ideal) (scores (lnX x w b) kn) (ix3 bi n k)
      = Cert.Routing.asg (fun d' => w (ix1 d')) (fun d' => b (ix1 d')) (fun k' d' => kn (ix3 (0 : Fin 1) k' d'))
          (fun d' => x (ix3 bi n d')) (Cert.Routing.muR (fun d' => x (ix3 bi n d')))
          (Cert.Routing.varR (fun d' => x (ix3 bi n d'))) k := by
  rw [probs_apply]
  unfold Cert.Routing.asg Cert.Routing.score
  refine congrArg (fun s => Cert.Routing.soft s k) (funext fun k' => ?_)
  rw [scores_apply]
  exact Finset.sum_congr rfl fun d' _ => by rw [lnX_apply]

theorem refOut_apply (x : FVec Ideal S8x4096x768 .f32) (sk sv : FVec Ideal S1x4x768 .f32) (w b ws bs : FVec Ideal S768 .f32)
    (bi : Fin 8) (k : Fin 4) (d : Fin 768) :
    refOut (F := Ideal) x sk sv w b ws bs (ix3 bi k d)
      = Cert.Routing.G (fun n d' => x (ix3 bi n d')) (fun d' => w (ix1 d')) (fun d' => b (ix1 d'))
          (fun k' d' => knorm (F := Ideal) sk ws bs (ix3 (0 : Fin 1) k' d')) (sv (ix3 (0 : Fin 1) k d)) k d := by
  unfold refOut Cert.Routing.G
  rw [addf_apply, bcast_lead_apply, update_apply]
  refine congrArg (sv (ix3 (0 : Fin 1) k d) + ·) ?_
  exact Finset.sum_congr rfl fun n _ => by rw [weight_apply]

end Cert.ReferenceIdeal.Term

end
-- ==== Proof.PreFinite.lean ====
import proofs.«422546_j29686813950006_3_alg».proof.Pre_finite_inputs
import proofs.«422546_j29686813950006_3_alg».proof.Proof.Gen.Pre_finite_inputs
import Idealize.ShloMosaic.Lib.ReduceAll
import Idealize.ShloMosaic.Lib.ValueIdx
import Idealize.ShloMosaic.PureOps.Ideal

/-!
# The precondition makes every entry of the input a real number

The precondition is the conjunction, over the seven arguments, of "every entry's absolute value is below `+∞`".
Its first conjunct says this of the input rows, which is what the variance identity needs.
-/

noncomputable section

namespace Cert.Routing.Finite

open Idealize.ShloMosaic Cert.Pre_finite_inputs

instance : Subsingleton S_.Idx := ⟨fun a b => funext fun d => d.elim0⟩

/-- The word the absolute values are compared with is `+∞`. -/
theorem ofBits_inf : Ideal.ofBits .f32 0x7F800000#32 = (⊤ : EReal) := by
  simp [Ideal.ofBits, Ideal.ieee]

/-- An extended real whose absolute value is below `+∞` is a real number. -/
theorem real_of_abs_lt (x : EReal) (h : Ideal.cmp .olt (max x (-x)) (Ideal.ofBits .f32 0x7F800000#32) = 1#1) :
    ∃ r : ℝ, x = (r : EReal) := by
  rw [ofBits_inf] at h
  induction x using EReal.rec with
  | bot => simp [Ideal.cmp] at h
  | top => simp [Ideal.cmp] at h
  | coe r => exact ⟨r, rfl⟩

/-- Under the precondition every entry of the first argument is a real number. -/
theorem x_real (a0 : FVec Ideal S8x4096x768 .f32) (a1 a2 : FVec Ideal S1x4x768 .f32) (a3 a4 a5 a6 : FVec Ideal S768 .f32)
    (h : fn (F := Ideal) a0 a1 a2 a3 a4 a5 a6 = fun _ => 1#1) (i : S8x4096x768.Idx) : ∃ r : ℝ, a0 i = (r : EReal) := by
  have h0 := congrFun h ValueIdx.ix0
  dsimp only [fn, fn_part1] at h0
  have h1 := (IntOp.andi_eq_one.1 h0).1
  have h2 := (IntOp.andi_eq_one.1 h1).1
  have h3 := (IntOp.andi_eq_one.1 h2).1
  have h4 := (IntOp.andi_eq_one.1 h3).1
  have h5 := (IntOp.andi_eq_one.1 h4).1
  have h6 := (IntOp.andi_eq_one.1 h5).1
  have h7 := Host.reduce_andi_all _ _ _ _ _ h6 i
  exact real_of_abs_lt (a0 i) h7

end Cert.Routing.Finite

end
-- ==== Proof.Bridge.lean ====
import proofs.«422546_j29686813950006_3_alg».proof.Defs
import proofs.«422546_j29686813950006_3_alg».proof.Proof.Gen.KernelIdeal.Value
import proofs.«422546_j29686813950006_3_alg».proof.Proof.Gen.Pre_finite_inputs
import proofs.«422546_j29686813950006_3_alg».proof.Proof.RowSpec
import proofs.«422546_j29686813950006_3_alg».proof.Proof.KHost
import proofs.«422546_j29686813950006_3_alg».proof.Proof.KFinal
import proofs.«422546_j29686813950006_3_alg».proof.Proof.RefRead
import proofs.«422546_j29686813950006_3_alg».proof.Proof.PreFinite
import Idealize.ShloMosaic.PureOps.IdealRules
import Idealize.ShloMosaic.Lib.ValueIdx
import Idealize.ShloMosaic.Lib.ValueLayout

/-!
# The kernel's output array is the reference's function of the arguments

Index by index: the kernel's array is the chunked form of the routing update with one-pass statistics and the named
reciprocal `1/768`; the reference's result is the whole-sum form with two-pass statistics; on rows of real numbers,
which the precondition gives, the two forms agree. The keys are the same function of the arguments on both sides,
the kernel reading them transposed.
-/

set_option maxRecDepth 16384

noncomputable section

namespace Cert.Proof.Bridge

open Cert.KernelIdeal Cert.KernelIdeal.Gen Idealize.ShloMosaic Idealize.ShloMosaic.TcCoe Idealize.SL.Sem
open Idealize.ShloMosaic.ValueIdx

/-- The kernel's named reciprocal denotes the real `1/768`. -/
theorem inv_768 :
    Named.named (F := Ideal) Cert.KernelIdeal.κ "inv_768" (φ := .f32) 0x3AAAAAAB#32 = ((1 / 768 : ℝ) : EReal) :=
  IdealRules.named_const.ideal_named_scalar _ _ _ _ rfl

variable (m : (ℓ : Loc nD τ sig) → Buf (Elt Ideal) ℓ)

/-- The staged scale row is the scale. -/
theorem scale_apply (c : Dev nD) (d : Fin 768) :
    (V m c main_v20 : S1x768.Idx → EReal) (ix2 (0 : Fin 1) d) = m ((c : Thread nD τ).loc main_arg3) (ix1 d) := by
  rw [Cert.KernelIdeal.Host.V_v20 m c]
  exact shapeCast_a_1a_apply _ _ _ _

/-- The staged shift row is the shift. -/
theorem shift_apply (c : Dev nD) (d : Fin 768) :
    (V m c main_v21 : S1x768.Idx → EReal) (ix2 (0 : Fin 1) d) = m ((c : Thread nD τ).loc main_arg4) (ix1 d) := by
  rw [Cert.KernelIdeal.Host.V_v21 m c]
  exact shapeCast_a_1a_apply _ _ _ _

/-- Column `k` of the staged keys is row `k` of the normalised slot keys. -/
theorem keys_apply (c : Dev nD) (d : Fin 768) (k : Fin 4) :
    (V m c main_v19 : S768x4.Idx → EReal) (ix2 d k)
      = Cert.ReferenceIdeal.Term.knorm (F := Ideal) (m ((c : Thread nD τ).loc main_arg1))
          (m ((c : Thread nD τ).loc main_arg5)) (m ((c : Thread nD τ).loc main_arg6)) (ix3 (0 : Fin 1) k d) := by
  rw [Cert.KernelIdeal.Host.V_v19 m c, transpose_ix2_apply, shapeCast_1ab_ab_apply, Cert.KernelIdeal.Host.keysK_eq_knorm]

/-- Under the precondition the kernel's output array is the reference's composed function of the arguments. -/
theorem kernel_out (hpre : Cert.Pre_KernelIdeal m) (c : Dev nD) :
    ((dats m 0 c).arrAt 5 cfg0.N : S8x4x768.Idx → EReal)
      = Cert.ReferenceIdeal.Term.refOut (F := Ideal) (m ((c : Thread nD τ).loc main_arg0))
          (m ((c : Thread nD τ).loc main_arg1)) (m ((c : Thread nD τ).loc main_arg2))
          (m ((c : Thread nD τ).loc main_arg3)) (m ((c : Thread nD τ).loc main_arg4))
          (m ((c : Thread nD τ).loc main_arg5)) (m ((c : Thread nD τ).loc main_arg6)) := by
  funext i
  obtain ⟨bi, k, d, rfl⟩ : ∃ (bi : Fin 8) (k : Fin 4) (d : Fin 768), i = ix3 bi k d := ⟨i 0, i 1, i 2, eq_ix3 i⟩
  rw [Cert.KernelIdeal.Final.kernel_final m c bi k d, Cert.ReferenceIdeal.Term.refOut_apply, inv_768,
    ← Cert.Routing.GK_eq_G _ (fun n d' => Cert.Routing.Finite.x_real _ _ _ _ _ _ _ (hpre c) (ix3 bi n d'))]
  simp only [V_main_arg0 m c, V_main_arg2 m c]
  have h20 : (fun d' : Fin 768 => (V m c main_v20 : S1x768.Idx → EReal) (ix2 (0 : Fin 1) d'))
      = fun d' => m ((c : Thread nD τ).loc main_arg3) (ix1 d') := funext (scale_apply m c)
  have h21 : (fun d' : Fin 768 => (V m c main_v21 : S1x768.Idx → EReal) (ix2 (0 : Fin 1) d'))
      = fun d' => m ((c : Thread nD τ).loc main_arg4) (ix1 d') := funext (shift_apply m c)
  have h19 : (fun (k' : Fin 4) (d' : Fin 768) => (V m c main_v19 : S768x4.Idx → EReal) (ix2 d' k'))
      = fun k' d' => Cert.ReferenceIdeal.Term.knorm (F := Ideal) (m ((c : Thread nD τ).loc main_arg1))
          (m ((c : Thread nD τ).loc main_arg5)) (m ((c : Thread nD τ).loc main_arg6)) (ix3 (0 : Fin 1) k' d') :=
    funext fun k' => funext fun d' => keys_apply m c d' k'
  rw [h20, h21, h19]

end Cert.Proof.Bridge

end
-- ==== Proof.lean ====
import proofs.«422546_j29686813950006_3_alg».proof.Defs
import proofs.«422546_j29686813950006_3_alg».proof.Proof.Gen.Kernel
import proofs.«422546_j29686813950006_3_alg».proof.Proof.Gen.Kernel.Frame
import proofs.«422546_j29686813950006_3_alg».proof.Proof.Gen.KernelIdeal
import proofs.«422546_j29686813950006_3_alg».proof.Proof.Gen.KernelIdeal.Frame
import proofs.«422546_j29686813950006_3_alg».proof.Proof.Gen.KernelIdeal.Value
import proofs.«422546_j29686813950006_3_alg».proof.Proof.Gen.ReferenceIdeal
import proofs.«422546_j29686813950006_3_alg».proof.Proof.Gen.Pre_finite_inputs
import proofs.«422546_j29686813950006_3_alg».proof.Proof.RefRun
import proofs.«422546_j29686813950006_3_alg».proof.Proof.Bridge
import Idealize.ShloMosaic.PureOps.IdealRules
import Idealize.ShloMosaic.Adequacy
import Idealize.ShloMosaic.Init

/-!
# Slot routing: the kernel against its reference, over the extended reals

Each row of the input is layer-normalised, scored against four layer-normalised slot keys and softmaxed over the
slots; slot `k` receives the softmax-weighted sum of the rows on top of its slot value. The kernel takes a row's
mean and variance in one pass (sum and sum of squares, times the named reciprocal `1/768`, the variance clamped at
zero) and adds the `4096` rows of a batch entry in four runs of `1024`; the reference takes them in two passes with
quotients by `768` and adds the rows in one sum. On real rows — the precondition — the statistics agree, sums
re-bracket freely on the extended reals, and a quotient by `768` is the product with `1/768`: the two results are
equal entry by entry.

The three frames: the kernel's two are the generated frame certificates; the reference's is its run with the result
dropped. The eight ledger entries all name the same constant.
-/

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.HandRun.run (F := Ideal) m ρ)

/-- One ledger entry: the table gives `"inv_768"` the value `1/768`, and the printed constant is that value. -/
theorem ledger : IdealRules.named_const.Statement Cert.KernelIdeal.κ "inv_768" .f32 0x3AAAAAAB#32 ((1 / 768 : ℝ) : EReal) :=
  IdealRules.named_const.statement Cert.KernelIdeal.κ "inv_768" .f32 0x3AAAAAAB#32 ((1 / 768 : ℝ) : EReal) rfl

theorem preserves : Cert.preserves_Kernel_KernelIdeal :=
  ⟨ledger, ledger, ledger, ledger, ledger, ledger, ledger, ledger⟩

/-- Both runs end with the result at the reference's composed function of the (agreeing) arguments. -/
theorem algebraic : Cert.algebraic_KernelIdeal_ReferenceIdeal := by
  intro m ρ m' ρ' hpre hagree
  refine ⟨fun c => Cert.ReferenceIdeal.Term.refOut (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Bridge.kernel_out m hpre c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.HandRun.run (F := Ideal) m' ρ')
    rw [(hagree c).1, (hagree c).2.1, (hagree c).2.2.1, (hagree c).2.2.2.1, (hagree c).2.2.2.2.1,
      (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
